-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x2048 : Shape := ⟨2, ![2048, 2048]⟩
abbrev S1024x64 : Shape := ⟨2, ![1024, 64]⟩
abbrev S_ : Shape := ⟨0, ![]⟩
abbrev S2048 : Shape := ⟨1, ![2048]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S2048x2048 : S_.BroadcastsInDim S2048x2048 (![] : Fin 0 → Fin S2048x2048.rank)
  reducesTo_S2048x2048_S2048_d1 : S2048x2048.ReducesTo [1] S2048
  reducesTo_S2048_S_d0 : S2048.ReducesTo [0] S_

variable [Facts]

def fn_part2 {F : FTy → Type} [FloatOps F] (main_v28 : IVec S_ 1) (main_v32 : IVec S_ 1) : IVec S_ 1 :=
  let main_v33 : IVec S_ 1 := andi main_v28 main_v32
  main_v33

def fn_part1 {F : FTy → Type} [FloatOps F] (main_arg3 : IVec S2048x2048 32) (main_arg5 : FVec F S1024x64 .f32) (main_arg6 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg5
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1024x64 .f32 := Host.absf main_arg6
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_c_10 : IVec S_ 32 := constantI S_ 32 0#32
  let main_v29 : IVec S2048x2048 32 := broadcastInDim S2048x2048 ![] bcast_S_S2048x2048 main_c_10
  let main_v30 : IVec S2048x2048 1 := cmpi .ne main_arg3 main_v29
  let main_c_11 : IVec S_ 1 := constantI S_ 1 0#1
  let main_v31 : IVec S2048 1 := (fun x v => Host.reduce IntOp.ori x v reducesTo_S2048x2048_S2048_d1 h_S_) main_v30 main_c_11
  let main_c_12 : IVec S_ 1 := constantI S_ 1 1#1
  let main_v32 : IVec S_ 1 := (fun x v => Host.reduce IntOp.andi x v reducesTo_S2048_S_d0 h_S_) main_v31 main_c_12
  fn_part2 (F := F) main_v28 main_v32

def fn {F : FTy → Type} [FloatOps F] (main_arg0 : FVec F S4x2048x1024 .f32) (main_arg1 : FVec F S4x2048x1024 .f32) (main_arg2 : FVec F S4x2048x1024 .f32) (main_arg3 : IVec S2048x2048 32) (main_arg4 : FVec F S1024x64 .f32) (main_arg5 : FVec F S1024x64 .f32) (main_arg6 : FVec F S1024x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg3 main_arg5 main_arg6 main_v13 main_v16
-- ==== Kernel.lean ====
abbrev S4x2048x1024 : Shape := ⟨3, ![4, 2048, 1024]⟩
abbrev S2048x2048 : Shape := ⟨2, ![2048, 2048]⟩
abbrev S1024x64 : Shape := ⟨2, ![1024, 64]⟩
abbrev S8192x1024 : Shape := ⟨2, ![8192, 1024]⟩
abbrev S8192x64 : Shape := ⟨2, ![8192, 64]⟩
abbrev S1024x1024 : Shape := ⟨2, ![1024, 1024]⟩
abbrev S4x2048x64 : Shape := ⟨3, ![4, 2048, 64]⟩
abbrev S4x2048x2048 : Shape := ⟨3, ![4, 2048, 2048]⟩
abbrev S1x512x64 : Shape := ⟨3, ![1, 512, 64]⟩
abbrev S1x2048x64 : Shape := ⟨3, ![1, 2048, 64]⟩
abbrev S512x2048 : Shape := ⟨2, ![512, 2048]⟩
abbrev S1x512x2048 : Shape := ⟨3, ![1, 512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 18
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S2048x2048, .i32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x64, .bf16⟩
  | .hbm, ⟨11, _⟩ => ⟨S8192x64, .bf16⟩
  | .hbm, ⟨12, _⟩ => ⟨S8192x64, .bf16⟩
  | .hbm, ⟨13, _⟩ => ⟨S4x2048x64, .bf16⟩
  | .hbm, ⟨14, _⟩ => ⟨S4x2048x64, .bf16⟩
  | .hbm, ⟨15, _⟩ => ⟨S4x2048x64, .bf16⟩
  | .hbm, ⟨16, _⟩ => ⟨S4x2048x64, .f32⟩
  | .hbm, ⟨17, _⟩ => ⟨S4x2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .bf16⟩
  | .local _ .vmem, ⟨10, _⟩ => ⟨S1024x64, .bf16⟩
  | .local _ .vmem, ⟨11, _⟩ => ⟨S1024x64, .bf16⟩
  | .local _ .vmem, ⟨12, _⟩ => ⟨S1024x64, .bf16⟩
  | .local _ .vmem, ⟨13, _⟩ => ⟨S1024x64, .bf16⟩
  | .local _ .vmem, ⟨14, _⟩ => ⟨S1024x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S512x2048, .i32⟩
  | .local _ .vmem, ⟨22, _⟩ => ⟨S512x2048, .i32⟩
  | .local _ .vmem, ⟨23, _⟩ => ⟨S1x512x64, .f32⟩
  | .local _ .vmem, ⟨24, _⟩ => ⟨S1x512x64, .f32⟩
  | .local _ .vmem, ⟨25, _⟩ => ⟨S1x512x2048, .f32⟩
  | .local _ .vmem, ⟨26, _⟩ => ⟨S1x512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  shapeCasts_S8192x64_S4x2048x64 : S8192x64.ShapeCasts S4x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S1024x1024_S1024x64_S1024x64_1_0_0_1_n_n_wf : DotDims.WF S1024x1024 S1024x64 S1024x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .bf16 = 32 ∨ (Rect.block (s := S8192x64) S1024x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .bf16 = 32 ∨ (Rect.block (s := S8192x64) S1024x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S8192x64.size a
  hwx0_8 : ∀ i : grid0.Coords, EltTy.bits .bf16 = 32 ∨ (Rect.block (s := S8192x64) S1024x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x2048x64.size a
  hwx1_0 : ∀ i : grid1.Coords, EltTy.bits .bf16 = 32 ∨ (Rect.block (s := S4x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x2048x64.size a
  hwx1_1 : ∀ i : grid1.Coords, EltTy.bits .bf16 = 32 ∨ (Rect.block (s := S4x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x2048x64.size a
  hwx1_2 : ∀ i : grid1.Coords, EltTy.bits .bf16 = 32 ∨ (Rect.block (s := S4x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .i32 = 32 ∨ (Rect.block (s := S2048x2048) S512x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S4x2048x64.size a
  hwx1_4 : ∀ i : grid1.Coords, EltTy.bits .f32 = 32 ∨ (Rect.block (s := S4x2048x64) S1x512x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x2048.size a ≤ S4x2048x2048.size a
  hwx1_5 : ∀ i : grid1.Coords, EltTy.bits .f32 = 32 ∨ (Rect.block (s := S4x2048x2048) S1x512x2048.size (cc1_transform_5 i) (hinb1_5 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v5) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x512x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S2048x2048 : Shape := ⟨2, ![2048, 2048]⟩
abbrev S1024x64 : Shape := ⟨2, ![1024, 64]⟩
abbrev S4x2048x64 : Shape := ⟨3, ![4, 2048, 64]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S2048x2048, .i32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S4x2048x64, .f32⟩
  | .hbm, ⟨8, _⟩ => ⟨S4x2048x64, .f32⟩
  | .hbm, ⟨9, _⟩ => ⟨S4x2048x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S4x2048x2048, .i1⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.Spec.lean ====
/-
  The mathematics both programs compute, over the extended reals, index by index.

  Three projections: for x of shape [4, 2048, 1024] and w of shape [1024, 64], (x · w)[b, t, h] = Σ_c x[b, t, c] · w[c, h].
  Over the projected arrays Q (queries), K (keys), V (values), each [4, 2048, 64], and an integer mask M of shape [2048, 2048]:
    logit[b, t, s]  = -∞ where M[t, s] = 0, and (Σ_h Q[b, t, h] · K[b, s, h]) · (1/32) elsewhere;
    rowMax[b, t]    = the maximum over s of logit[b, t, s] (from -∞);
    weight[b, t, s] = exp (logit[b, t, s] - rowMax[b, t]);
    denom[b, t]     = Σ_s weight[b, t, s].
  The two programs normalise differently: one multiplies each weight by the row's reciprocal 1 / denom, the other divides each
  weight by denom. The two agree wherever denom ≠ 0, which holds on every row of the mask that keeps at least one key.
  The attention output is Σ_s attn[b, t, s] · V[b, s, h].
-/
import Idealize.ShloMosaic.PureOps.Ideal
import Idealize.ShloMosaic.Lib.ValueIdx

noncomputable section

namespace Cert.Attention

open Idealize.ShloMosaic Idealize.ShloMosaic.ValueIdx

/-- An input of shape [4, 2048, 1024] at the ideal values. -/
abbrev InArr := (⟨3, ![4, 2048, 1024]⟩ : Shape).Idx → EReal
/-- A weight matrix of shape [1024, 64]. -/
abbrev WArr := (⟨2, ![1024, 64]⟩ : Shape).Idx → EReal
/-- A projected array (queries, keys, values, the output) of shape [4, 2048, 64]. -/
abbrev PArr := (⟨3, ![4, 2048, 64]⟩ : Shape).Idx → EReal
/-- The attention weights, of shape [4, 2048, 2048]. -/
abbrev AArr := (⟨3, ![4, 2048, 2048]⟩ : Shape).Idx → EReal
/-- The integer mask, of shape [2048, 2048]. -/
abbrev MArr := (⟨2, ![2048, 2048]⟩ : Shape).Idx → BitVec 32

/-- Row (b, t) of `x` against column `h` of `w`. -/
def proj (x : InArr) (w : WArr) (b : Fin 4) (t : Fin 2048) (h : Fin 64) : EReal :=
  ∑ c : Fin 1024, x (ix3 b t c) * w (ix2 c h)

/-- The projection as an array. -/
def projArr (x : InArr) (w : WArr) : PArr :=
  fun i => proj x w ⟨(i 0).val, (i 0).isLt⟩ ⟨(i 1).val, (i 1).isLt⟩ ⟨(i 2).val, (i 2).isLt⟩

theorem projArr_apply (x : InArr) (w : WArr) (b : Fin 4) (t : Fin 2048) (h : Fin 64) :
    projArr x w (ix3 b t h) = proj x w b t h := rfl

/-- The scaled score of query row `t` against key row `s`, masked to -∞ where the mask is zero. -/
def logit (Q K : PArr) (M : MArr) (b : Fin 4) (t s : Fin 2048) : EReal :=
  if M (ix2 t s) = 0#32 then ⊥ else (∑ h : Fin 64, Q (ix3 b t h) * K (ix3 b s h)) * ((1 / 32 : ℝ) : EReal)

/-- The largest logit of query row `t`. -/
def rowMax (Q K : PArr) (M : MArr) (b : Fin 4) (t : Fin 2048) : EReal :=
  (Finset.univ : Finset (Fin 2048)).fold max ⊥ (fun s => logit Q K M b t s)

/-- The unnormalised softmax weight. -/
def weight (Q K : PArr) (M : MArr) (b : Fin 4) (t s : Fin 2048) : EReal :=
  Ideal.exp (logit Q K M b t s - rowMax Q K M b t)

/-- The row's normaliser. -/
def denom (Q K : PArr) (M : MArr) (b : Fin 4) (t : Fin 2048) : EReal :=
  ∑ s : Fin 2048, weight Q K M b t s

/-- Normalised by the row's reciprocal (a product). -/
def attnMul (Q K : PArr) (M : MArr) (b : Fin 4) (t s : Fin 2048) : EReal :=
  weight Q K M b t s * Ideal.div 1 (denom Q K M b t)

/-- Normalised by division. -/
def attnDiv (Q K : PArr) (M : MArr) (b : Fin 4) (t s : Fin 2048) : EReal :=
  Ideal.div (weight Q K M b t s) (denom Q K M b t)

/-- The attention output under the product normalisation. -/
def outMul (Q K V : PArr) (M : MArr) (b : Fin 4) (t : Fin 2048) (h : Fin 64) : EReal :=
  ∑ s : Fin 2048, attnMul Q K M b t s * V (ix3 b s h)

/-- The attention output under the quotient normalisation. -/
def outDiv (Q K V : PArr) (M : MArr) (b : Fin 4) (t : Fin 2048) (h : Fin 64) : EReal :=
  ∑ s : Fin 2048, attnDiv Q K M b t s * V (ix3 b s h)

/-- The four as arrays. -/
def attnMulArr (Q K : PArr) (M : MArr) : AArr :=
  fun i => attnMul Q K M ⟨(i 0).val, (i 0).isLt⟩ ⟨(i 1).val, (i 1).isLt⟩ ⟨(i 2).val, (i 2).isLt⟩
def attnDivArr (Q K : PArr) (M : MArr) : AArr :=
  fun i => attnDiv Q K M ⟨(i 0).val, (i 0).isLt⟩ ⟨(i 1).val, (i 1).isLt⟩ ⟨(i 2).val, (i 2).isLt⟩
def outMulArr (Q K V : PArr) (M : MArr) : PArr :=
  fun i => outMul Q K V M ⟨(i 0).val, (i 0).isLt⟩ ⟨(i 1).val, (i 1).isLt⟩ ⟨(i 2).val, (i 2).isLt⟩
def outDivArr (Q K V : PArr) (M : MArr) : PArr :=
  fun i => outDiv Q K V M ⟨(i 0).val, (i 0).isLt⟩ ⟨(i 1).val, (i 1).isLt⟩ ⟨(i 2).val, (i 2).isLt⟩

/-- Every entry is a real number. -/
def Finite {S : Shape} (x : S.Idx → EReal) : Prop := ∀ i, ∃ r : ℝ, x i = (r : EReal)

/-- Every query row of the mask keeps at least one key. -/
def RowsKept (M : MArr) : Prop := ∀ t : Fin 2048, ∃ s : Fin 2048, M (ix2 t s) ≠ 0#32

theorem attnMulArr_apply (Q K : PArr) (M : MArr) (b : Fin 4) (t s : Fin 2048) :
    attnMulArr Q K M (ix3 b t s) = attnMul Q K M b t s := rfl
theorem attnDivArr_apply (Q K : PArr) (M : MArr) (b : Fin 4) (t s : Fin 2048) :
    attnDivArr Q K M (ix3 b t s) = attnDiv Q K M b t s := rfl
theorem outMulArr_apply (Q K V : PArr) (M : MArr) (b : Fin 4) (t : Fin 2048) (h : Fin 64) :
    outMulArr Q K V M (ix3 b t h) = outMul Q K V M b t h := rfl
theorem outDivArr_apply (Q K V : PArr) (M : MArr) (b : Fin 4) (t : Fin 2048) (h : Fin 64) :
    outDivArr Q K V M (ix3 b t h) = outDiv Q K V M b t h := rfl

end Cert.Attention

end
-- ==== Proof.Consts.lean ====
/-
  The float literals of the two programs, read once as extended reals.
-/
import proofs.«414261_j26568667693685_3_alg».proof.KernelIdeal
import Idealize.ShloMosaic.PureOps.Ideal
import Idealize.ShloMosaic.PureOps.IdealRules

noncomputable section

namespace Cert.Attention.Consts

open Idealize.ShloMosaic

/-- The word 0x3D000000 is 2⁻⁵. -/
theorem ofBits_scale : Ideal.ofBits .f32 0x3D000000#32 = ((1 / 32 : ℝ) : EReal) := by
  -- sign 0, exponent field 122, fraction 0: 2²³ · 2^(122 - 127 - 23) = 2⁻⁵
  simp [Ideal.ofBits, Ideal.ieee, -EReal.coe_mul]; norm_num

/-- The word 0x3F800000 is 1. -/
theorem ofBits_one : Ideal.ofBits .f32 0x3F800000#32 = (1 : EReal) := by
  -- sign 0, exponent field 127, fraction 0: 2²³ · 2^(127 - 127 - 23) = 1
  rw [show (1 : EReal) = ((1 : ℝ) : EReal) by norm_cast]
  simp [Ideal.ofBits, Ideal.ieee, -EReal.coe_mul]; norm_num

/-- The word 0xFF800000 is -∞. -/
theorem ofBits_neg_inf : Ideal.ofBits .f32 0xFF800000#32 = (⊥ : EReal) := by
  -- sign 1, exponent field all ones, fraction 0
  simp [Ideal.ofBits, Ideal.ieee]

/-- The word 0x44800000 is 1024. -/
theorem ofBits_1024 : Ideal.ofBits .f32 0x44800000#32 = ((1024 : ℝ) : EReal) := by
  -- sign 0, exponent field 137, fraction 0: 2²³ · 2^(137 - 127 - 23) = 2¹⁰
  simp [Ideal.ofBits, Ideal.ieee, -EReal.coe_mul]; norm_num

/-- The word 0xBF000000 is -1/2. -/
theorem ofBits_neg_half : Ideal.ofBits .f32 0xBF000000#32 = ((-1 / 2 : ℝ) : EReal) := by
  -- sign 1, exponent field 126, fraction 0: -(2²³ · 2^(126 - 127 - 23)) = -2⁻¹
  simp [Ideal.ofBits, Ideal.ieee, -EReal.coe_mul, -EReal.coe_neg]; norm_num

/-- In the reals, 1024 to the power -1/2 is 1/32: 1024 = 32², so 1024^(-1/2) = 32^(2 · (-1/2)) = 32⁻¹. -/
private theorem rpow_1024_neg_half : Real.rpow (1024 : ℝ) (-1 / 2 : ℝ) = 1 / 32 := by
  show (1024 : ℝ) ^ (-1 / 2 : ℝ) = 1 / 32
  have h : (1024 : ℝ) = (32 : ℝ) ^ (2 : ℝ) := by
    rw [Real.rpow_two]; norm_num
  rw [h, ← Real.rpow_mul (by norm_num : (0 : ℝ) ≤ 32)]
  have e : (2 : ℝ) * (-1 / 2) = -1 := by norm_num
  rw [e, Real.rpow_neg_one]; norm_num

/-- 1024 to the power -1/2 is 1/32: 1024 = 32². -/
theorem pow_scale : Ideal.pow ((1024 : ℝ) : EReal) ((-1 / 2 : ℝ) : EReal) = ((1 / 32 : ℝ) : EReal) := by
  -- on two reals the power is the real power
  show ((Real.rpow (1024 : ℝ) (-1 / 2 : ℝ) : ℝ) : EReal) = _
  rw [rpow_1024_neg_half]

/-- The mask fill is named -∞ by the certificate's table. -/
theorem neg_big : Named.named (F := Ideal) Cert.KernelIdeal.κ "neg_big" (φ := .f32) 0xF149F2CA#32 = (⊥ : EReal) := by
  exact IdealRules.named_const.ideal_named_scalar _ _ _ _ rfl

end Cert.Attention.Consts

end
-- ==== Proof.AttnPayload.lean ====
/-
  One block of the attention kernel: what the body stores, at an index, from the blocks it loads.

  For the query rows ti·512 + p of batch b the body forms, against all 2048 keys,
    L[p, s] = -∞ where the mask is zero, and (Σ_h q[p, h] · k[s, h]) · (1/32) elsewhere,
    m[p]    = the maximum of L[p, ·] from -∞,
    W[p, s] = exp (L[p, s] - m[p]),
    the stored weights W[p, s] · (1 / Σ_s' W[p, s']),
  and the stored output Σ_s (stored weight)[p, s] · v[s, h]. Read at the ideal values each step is the
  specification's: the logit, the row maximum, the weight, the normaliser, the product-normalised weight.
  The proof reads each operation at an index given by coordinates: the two products as sums over their one
  contracted axis, the two lane reductions as a fold of `max` and a sum over the 2048 lanes, the keepdims
  column and its broadcast along the lanes as the row's value, the format changes as the identity.
-/
import proofs.«414261_j26568667693685_3_alg».proof.Proof.Gen.KernelIdeal.Skeleton
import proofs.«414261_j26568667693685_3_alg».proof.Proof.Spec
import proofs.«414261_j26568667693685_3_alg».proof.Proof.Consts
import Idealize.ShloMosaic.Lib.ValueLayout
import Idealize.ShloMosaic.PureOps.Ideal.Laws
import Idealize.ShloMosaic.Lib.StableHlo.Predicate

noncomputable section

namespace Cert.KernelIdeal.AttnValue

open Cert.KernelIdeal Cert.KernelIdeal.Gen Cert.Attention
open Idealize.ShloMosaic Idealize.ShloMosaic.ValueIdx

/-! ## A column of row values: the keepdims layout -/

/-- A `[512]` vector cast to a `[512, 1]` column reads, at `(p, u)`, the vector at `p`. -/
private theorem col_cast_apply {α : Type} (v : S512.Idx → α) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_one, Shape.rowMajor_val_two]
    show p.val = p.val * 1 + u.val
    rw [hu, Nat.mul_one, Nat.add_zero])

/-- A `[512, 1]` column broadcast along the lanes reads, at `(p, s)`, the column's entry of row `p`. -/
private theorem col_bcast_apply {α : Type} (v : S512x1.Idx → α) (p : Fin 512) (s : Fin 2048) :
    broadcastTo S512x2048 v broadcasts_S512x1_S512x2048 (ix2 p s) = v (ix2 p (0 : Fin 1)) := by
  refine broadcastTo_apply v broadcasts_S512x1_S512x2048 (ix2 p s) (ix2 p (0 : Fin 1)) fun ax => ?_
  match ax with
  | ⟨0, _⟩ => rfl
  | ⟨1, _⟩ => rfl

/-! ## The two lane reductions of a row -/

/-- The lane maxima of a block, from the word of -∞. -/
private def rowMaxVec (L : FVec Ideal S512x2048 .f32) : FVec Ideal S512 .f32 :=
  multiReduction (F := Ideal) .maximumf [1] S512 L 0xFF800000#32 reduces_S512x2048_S512 (.inl rfl) rfl

/-- The lane sums of a block, from the zero word. -/
private def rowSumVec (W : FVec Ideal S512x2048 .f32) : FVec Ideal S512 .f32 :=
  multiReduction (F := Ideal) .add [1] S512 W 0x00000000#32 reduces_S512x2048_S512 (.inl rfl) rfl

/-- The lane maximum of row `p` is the fold of `max` from -∞ over the row's 2048 entries. -/
private theorem rowMaxVec_apply (L : FVec Ideal S512x2048 .f32) (p : Fin 512) :
    rowMaxVec L (ix1 p) = (Finset.univ : Finset (Fin 2048)).fold max ⊥ (fun s => L (ix2 p s)) := by
  unfold rowMaxVec
  refine (Ideal.multiReduction_maximumf_single L 0xFF800000#32 reduces_S512x2048_S512 (.inl rfl) rfl (ix1 p)).trans ?_
  show (Finset.univ : Finset (Fin 2048)).fold max (Ideal.ofBits .f32 0xFF800000#32)
      (fun s => L (reduces_S512x2048_S512.lift (ix1 p) s)) = _
  rw [Cert.Attention.Consts.ofBits_neg_inf]
  refine congrArg (fun f => (Finset.univ : Finset (Fin 2048)).fold max ⊥ f) (funext fun s => congrArg L ?_)
  funext a
  refine Fin.ext ?_
  match a with
  | ⟨0, _⟩ => rfl
  | ⟨1, _⟩ => rfl

/-- The lane sum of row `p` is the sum of the row's 2048 entries. -/
private theorem rowSumVec_apply (W : FVec Ideal S512x2048 .f32) (p : Fin 512) :
    rowSumVec W (ix1 p) = ∑ s : Fin 2048, W (ix2 p s) := by
  unfold rowSumVec
  refine (Ideal.multiReduction_add_single W 0x00000000#32 reduces_S512x2048_S512 (.inl rfl) rfl (ix1 p)).trans ?_
  show ∑ s : Fin 2048, W (reduces_S512x2048_S512.lift (ix1 p) s) = _
  refine Finset.sum_congr rfl fun s _ => congrArg W ?_
  funext a
  refine Fin.ext ?_
  match a with
  | ⟨0, _⟩ => rfl
  | ⟨1, _⟩ => rfl

/-! ## The score product: queries against keys, contracting the head axis of both -/

private theorem lhs_scores_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
private theorem lhs_scores_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
private theorem rhs_scores_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
private theorem rhs_scores_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Entry `(p, s)` of the score product into a zero accumulator: the sum over the 64 head coordinates. -/
private theorem scores_apply (a : FVec Ideal S512x64 .bf16) (k : FVec Ideal S2048x64 .bf16) (p : Fin 512) (s : Fin 2048) :
    matmul (F := Ideal) dot_S512x64_S2048x64_S512x2048_1_1_0_0_n_n none a k (constant (F := Ideal) S512x2048 .f32 0x00000000#32) (ix2 p s)
      = ∑ h : Fin 64, a (ix2 p h) * k (ix2 s h) := by
  refine (Ideal.matmul_constant_zero_apply dot_S512x64_S2048x64_S512x2048_1_1_0_0_n_n none a k (ix2 p s)).trans ?_
  rw [← Equiv.sum_comp (ValueIdx.contrEquiv1 dot_S512x64_S2048x64_S512x2048_1_1_0_0_n_n 64 rfl rfl).symm]
  refine Finset.sum_congr rfl fun h _ => ?_
  have hk := ValueIdx.contrEquiv1_symm_val dot_S512x64_S2048x64_S512x2048_1_1_0_0_n_n 64 rfl rfl h
  have el : dot_S512x64_S2048x64_S512x2048_1_1_0_0_n_n.lhsIdx (ix2 p s) ((ValueIdx.contrEquiv1 dot_S512x64_S2048x64_S512x2048_1_1_0_0_n_n 64 rfl rfl).symm h) = ix2 p h := funext fun ax => Fin.ext (by
    match ax with
    | ⟨0, _⟩ => exact lhs_scores_0 _ _
    | ⟨1, _⟩ => exact (lhs_scores_1 _ _).trans hk)
  have er : dot_S512x64_S2048x64_S512x2048_1_1_0_0_n_n.rhsIdx (ix2 p s) ((ValueIdx.contrEquiv1 dot_S512x64_S2048x64_S512x2048_1_1_0_0_n_n 64 rfl rfl).symm h) = ix2 s h := funext fun ax => Fin.ext (by
    match ax with
    | ⟨0, _⟩ => exact rhs_scores_0 _ _
    | ⟨1, _⟩ => exact (rhs_scores_1 _ _).trans hk)
  rw [el, er]

/-! ## The output product: attention rows against values, contracting the key axis -/

private theorem lhs_out_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
private theorem lhs_out_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
private theorem rhs_out_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
private theorem rhs_out_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry `(p, h)` of the output product into a zero accumulator: the sum over the 2048 keys. -/
private theorem out_apply (a : FVec Ideal S512x2048 .bf16) (v : FVec Ideal S2048x64 .bf16) (p : Fin 512) (h : Fin 64) :
    matmul (F := Ideal) dot_S512x2048_S2048x64_S512x64_1_0_0_1_n_n none a v (constant (F := Ideal) S512x64 .f32 0x00000000#32) (ix2 p h)
      = ∑ s : Fin 2048, a (ix2 p s) * v (ix2 s h) := by
  refine (Ideal.matmul_constant_zero_apply dot_S512x2048_S2048x64_S512x64_1_0_0_1_n_n none a v (ix2 p h)).trans ?_
  rw [← Equiv.sum_comp (ValueIdx.contrEquiv1 dot_S512x2048_S2048x64_S512x64_1_0_0_1_n_n 2048 rfl rfl).symm]
  refine Finset.sum_congr rfl fun s _ => ?_
  have hk := ValueIdx.contrEquiv1_symm_val dot_S512x2048_S2048x64_S512x64_1_0_0_1_n_n 2048 rfl rfl s
  have el : dot_S512x2048_S2048x64_S512x64_1_0_0_1_n_n.lhsIdx (ix2 p h) ((ValueIdx.contrEquiv1 dot_S512x2048_S2048x64_S512x64_1_0_0_1_n_n 2048 rfl rfl).symm s) = ix2 p s := funext fun ax => Fin.ext (by
    match ax with
    | ⟨0, _⟩ => exact lhs_out_0 _ _
    | ⟨1, _⟩ => exact (lhs_out_1 _ _).trans hk)
  have er : dot_S512x2048_S2048x64_S512x64_1_0_0_1_n_n.rhsIdx (ix2 p h) ((ValueIdx.contrEquiv1 dot_S512x2048_S2048x64_S512x64_1_0_0_1_n_n 2048 rfl rfl).symm s) = ix2 s h := funext fun ax => Fin.ext (by
    match ax with
    | ⟨0, _⟩ => exact (rhs_out_0 _ _).trans hk
    | ⟨1, _⟩ => exact rhs_out_1 _ _)
  rw [el, er]

/-! ## The block in three pieces: masked scores, weights, reciprocal normaliser -/

/-- The query block as a matrix: the unit batch axis dropped. -/
private def qMat (x0 : Vec Ideal S1x512x64 .bf16) : FVec Ideal S512x64 .bf16 := shapeCast S512x64 x0 shapeCasts_S1x512x64_S512x64

/-- A key or value block as a matrix: the unit batch axis dropped. -/
private def kvMat (x : Vec Ideal S1x2048x64 .bf16) : FVec Ideal S2048x64 .bf16 := shapeCast S2048x64 x shapeCasts_S1x2048x64_S2048x64

/-- The scaled scores of the query block against the key block, the mask's zeros filled with the named constant. -/
private def scoreBlk (x0 : Vec Ideal S1x512x64 .bf16) (x1 : Vec Ideal S1x2048x64 .bf16) (x3 : Vec Ideal S512x2048 .i32) :
    FVec Ideal S512x2048 .f32 :=
  select (cmpi .eq x3 (broadcast S512x2048 (0#32 : BitVec 32)))
    (broadcast S512x2048 (Named.named (F := Ideal) κ "neg_big" (φ := .f32) 0xF149F2CA#32))
    (mulf (matmul (F := Ideal) dot_S512x64_S2048x64_S512x2048_1_1_0_0_n_n none
        (qMat x0) (kvMat x1)
        (constant (F := Ideal) S512x2048 .f32 0x00000000#32))
      (broadcast S512x2048 (Scalar.ofBits (F := Ideal) .f32 0x3D000000#32)))

/-- The exponential of each entry less its row's maximum. -/
private def weightBlk (L : FVec Ideal S512x2048 .f32) : FVec Ideal S512x2048 .f32 :=
  exp (subf L (broadcastTo S512x2048 (shapeCast S512x1 (rowMaxVec L) shapeCasts_S512_S512x1) broadcasts_S512x1_S512x2048))

/-- The reciprocal of each row's sum, along the lanes. -/
private def recipBlk (W : FVec Ideal S512x2048 .f32) : FVec Ideal S512x2048 .f32 :=
  broadcastTo S512x2048
    (divf (broadcast S512x1 (Scalar.ofBits (F := Ideal) .f32 0x3F800000#32)) (shapeCast S512x1 (rowSumVec W) shapeCasts_S512_S512x1))
    broadcasts_S512x1_S512x2048

/-- The normalised block is the weights times the reciprocal normaliser: the same operations in the same order. -/
private theorem pay2_eq (x0 : Vec Ideal S1x512x64 .bf16) (x1 : Vec Ideal S1x2048x64 .bf16) (x3 : Vec Ideal S512x2048 .i32) :
    k1_pay2 (F := Ideal) x0 x1 x3
      = mulf (weightBlk (scoreBlk x0 x1 x3)) (recipBlk (weightBlk (scoreBlk x0 x1 x3))) := rfl

section AtABlock

variable (Q K : PArr) (M : MArr) (b ti : Fin 4)
  (x0 : Vec Ideal S1x512x64 .bf16) (x1 : Vec Ideal S1x2048x64 .bf16) (x3 : Vec Ideal S512x2048 .i32)
  (h0 : ∀ (p : Fin 512) (h : Fin 64), x0 (ix3 0 p h) = Q (ix3 b ⟨ti.val * 512 + p.val, by omega⟩ h))
  (h1 : ∀ (s : Fin 2048) (h : Fin 64), x1 (ix3 0 s h) = K (ix3 b s h))
  (h3 : ∀ (p : Fin 512) (s : Fin 2048), x3 (ix2 p s) = M (ix2 ⟨ti.val * 512 + p.val, by omega⟩ s))

include h0 h1 h3

/-- The masked score at `(p, s)` is the logit of query row `ti · 512 + p` against key `s`. -/
private theorem scoreBlk_apply (p : Fin 512) (s : Fin 2048) :
    scoreBlk x0 x1 x3 (ix2 p s) = logit Q K M b ⟨ti.val * 512 + p.val, by omega⟩ s := by
  have hs : matmul (F := Ideal) dot_S512x64_S2048x64_S512x2048_1_1_0_0_n_n none
        (qMat x0) (kvMat x1)
        (constant (F := Ideal) S512x2048 .f32 0x00000000#32) (ix2 p s)
      = ∑ h : Fin 64, Q (ix3 b ⟨ti.val * 512 + p.val, by omega⟩ h) * K (ix3 b s h) := by
    refine (scores_apply _ _ p s).trans (Finset.sum_congr rfl fun h _ => ?_)
    have e0 : qMat x0 (ix2 p h) = Q (ix3 b ⟨ti.val * 512 + p.val, by omega⟩ h) :=
      (shapeCast_1ab_ab_apply x0 shapeCasts_S1x512x64_S512x64 p h).trans (h0 p h)
    have e1 : kvMat x1 (ix2 s h) = K (ix3 b s h) :=
      (shapeCast_1ab_ab_apply x1 shapeCasts_S1x2048x64_S2048x64 s h).trans (h1 s h)
    rw [e0, e1]
  show Scalar.select (IntOp.cmpi .eq (x3 (ix2 p s)) (0#32 : BitVec 32))
      (Named.named (F := Ideal) κ "neg_big" (φ := .f32) 0xF149F2CA#32)
      (matmul (F := Ideal) dot_S512x64_S2048x64_S512x2048_1_1_0_0_n_n none
        (qMat x0) (kvMat x1)
        (constant (F := Ideal) S512x2048 .f32 0x00000000#32) (ix2 p s) * Ideal.ofBits .f32 0x3D000000#32) = _
  rw [hs, h3 p s, Cert.Attention.Consts.neg_big, Cert.Attention.Consts.ofBits_scale]
  unfold logit
  by_cases hM : M (ix2 ⟨ti.val * 512 + p.val, by omega⟩ s) = 0#32
  · rw [if_pos hM, hM, StableHlo.Predicate.cmpi_eq_iff.mpr rfl]
    exact select_one _ _
  · rw [if_neg hM, eq_zero_of_ne_one (fun h => hM (StableHlo.Predicate.cmpi_eq_iff.mp h))]
    exact select_zero _ _

omit h0 h1 h3 in
/-- A weight at `(p, s)`: the exponential of the entry less the fold of `max` over its row. -/
private theorem weightBlk_apply (L : FVec Ideal S512x2048 .f32) (p : Fin 512) (s : Fin 2048) :
    weightBlk L (ix2 p s) = Ideal.exp (L (ix2 p s) - (Finset.univ : Finset (Fin 2048)).fold max ⊥ (fun s' => L (ix2 p s'))) := by
  have hm : broadcastTo S512x2048 (shapeCast S512x1 (rowMaxVec L) shapeCasts_S512_S512x1) broadcasts_S512x1_S512x2048 (ix2 p s)
      = (Finset.univ : Finset (Fin 2048)).fold max ⊥ (fun s' => L (ix2 p s')) :=
    (col_bcast_apply _ p s).trans ((col_cast_apply (rowMaxVec L) p 0).trans (rowMaxVec_apply L p))
  show Ideal.exp (L (ix2 p s)
      - broadcastTo S512x2048 (shapeCast S512x1 (rowMaxVec L) shapeCasts_S512_S512x1) broadcasts_S512x1_S512x2048 (ix2 p s)) = _
  rw [hm]

omit h0 h1 h3 in
/-- The reciprocal normaliser at `(p, s)`: one over the sum of row `p`. -/
private theorem recipBlk_apply (W : FVec Ideal S512x2048 .f32) (p : Fin 512) (s : Fin 2048) :
    recipBlk W (ix2 p s) = Ideal.div 1 (∑ s' : Fin 2048, W (ix2 p s')) := by
  unfold recipBlk
  refine (col_bcast_apply _ p s).trans ?_
  show Ideal.div (Ideal.ofBits .f32 0x3F800000#32) (shapeCast S512x1 (rowSumVec W) shapeCasts_S512_S512x1 (ix2 p (0 : Fin 1))) = _
  rw [Cert.Attention.Consts.ofBits_one, col_cast_apply, rowSumVec_apply]

/-- The normalised block at `(p, s)` is the product-normalised attention weight. -/
private theorem pay2_apply (p : Fin 512) (s : Fin 2048) :
    k1_pay2 (F := Ideal) x0 x1 x3 (ix2 p s) = attnMul Q K M b ⟨ti.val * 512 + p.val, by omega⟩ s := by
  have hL : ∀ s' : Fin 2048, scoreBlk x0 x1 x3 (ix2 p s') = logit Q K M b ⟨ti.val * 512 + p.val, by omega⟩ s' :=
    fun s' => scoreBlk_apply Q K M b ti x0 x1 x3 h0 h1 h3 p s'
  have hLf : (fun s' : Fin 2048 => scoreBlk x0 x1 x3 (ix2 p s')) = fun s' => logit Q K M b ⟨ti.val * 512 + p.val, by omega⟩ s' :=
    funext hL
  have hW : ∀ s' : Fin 2048, weightBlk (scoreBlk x0 x1 x3) (ix2 p s') = weight Q K M b ⟨ti.val * 512 + p.val, by omega⟩ s' := fun s' => by
    rw [weightBlk_apply, hLf, hL s']
    rfl
  have hWf : (fun s' : Fin 2048 => weightBlk (scoreBlk x0 x1 x3) (ix2 p s')) = fun s' => weight Q K M b ⟨ti.val * 512 + p.val, by omega⟩ s' :=
    funext hW
  refine (congrFun (pay2_eq x0 x1 x3) (ix2 p s)).trans ?_
  show weightBlk (scoreBlk x0 x1 x3) (ix2 p s) * recipBlk (weightBlk (scoreBlk x0 x1 x3)) (ix2 p s) = _
  rw [recipBlk_apply, hWf, hW s]
  rfl

end AtABlock

/-! ## What the body stores -/

/-- The stored attention block: rows ti·512 + p of batch b. -/
theorem pay_attn (Q K : PArr) (M : MArr) (b ti : Fin 4)
    (x0 : Vec Ideal S1x512x64 .bf16) (x1 : Vec Ideal S1x2048x64 .bf16) (x3 : Vec Ideal S512x2048 .i32)
    (h0 : ∀ (p : Fin 512) (h : Fin 64), x0 (ix3 0 p h) = Q (ix3 b ⟨ti.val * 512 + p.val, by omega⟩ h))
    (h1 : ∀ (s : Fin 2048) (h : Fin 64), x1 (ix3 0 s h) = K (ix3 b s h))
    (h3 : ∀ (p : Fin 512) (s : Fin 2048), x3 (ix2 p s) = M (ix2 ⟨ti.val * 512 + p.val, by omega⟩ s))
    (p : Fin 512) (s : Fin 2048) :
    k1_pay3 (F := Ideal) x0 x1 x3 (ix3 0 p s) = attnMul Q K M b ⟨ti.val * 512 + p.val, by omega⟩ s :=
  (shapeCast_ab_1ab_apply (k1_pay2 (F := Ideal) x0 x1 x3) shapeCasts_S512x2048_S1x512x2048 0 p s).trans
    (pay2_apply Q K M b ti x0 x1 x3 h0 h1 h3 p s)

/-- The stored output block. -/
theorem pay_out (Q K V : PArr) (M : MArr) (b ti : Fin 4)
    (x0 : Vec Ideal S1x512x64 .bf16) (x1 x2 : Vec Ideal S1x2048x64 .bf16) (x3 : Vec Ideal S512x2048 .i32)
    (h0 : ∀ (p : Fin 512) (h : Fin 64), x0 (ix3 0 p h) = Q (ix3 b ⟨ti.val * 512 + p.val, by omega⟩ h))
    (h1 : ∀ (s : Fin 2048) (h : Fin 64), x1 (ix3 0 s h) = K (ix3 b s h))
    (h2 : ∀ (s : Fin 2048) (h : Fin 64), x2 (ix3 0 s h) = V (ix3 b s h))
    (h3 : ∀ (p : Fin 512) (s : Fin 2048), x3 (ix2 p s) = M (ix2 ⟨ti.val * 512 + p.val, by omega⟩ s))
    (p : Fin 512) (h : Fin 64) :
    k1_pay1 (F := Ideal) (k1_pay4 (F := Ideal) x0 x1 x2 x3) (ix3 0 p h) = outMul Q K V M b ⟨ti.val * 512 + p.val, by omega⟩ h := by
  refine (shapeCast_ab_1ab_apply (k1_pay4 (F := Ideal) x0 x1 x2 x3) shapeCasts_S512x64_S1x512x64 0 p h).trans ?_
  refine (out_apply (truncf .bf16 (k1_pay2 (F := Ideal) x0 x1 x3) bitsLt_bf16_f32)
    (kvMat x2) p h).trans ?_
  unfold outMul
  refine Finset.sum_congr rfl fun s _ => ?_
  have ea : truncf .bf16 (k1_pay2 (F := Ideal) x0 x1 x3) bitsLt_bf16_f32 (ix2 p s)
      = attnMul Q K M b ⟨ti.val * 512 + p.val, by omega⟩ s := pay2_apply Q K M b ti x0 x1 x3 h0 h1 h3 p s
  have ev : kvMat x2 (ix2 s h) = V (ix3 b s h) :=
    (shapeCast_1ab_ab_apply x2 shapeCasts_S1x2048x64_S2048x64 s h).trans (h2 s h)
  rw [ea, ev]

end Cert.KernelIdeal.AttnValue

end
-- ==== Proof.AttnArrays.lean ====
/-
  The attention region's two output arrays after its sixteen grid points, from the contents the region is entered with.

  The grid is (query tile ti, batch b), the tile outermost. At a point the body loads rows ti·512 … ti·512 + 511 of batch b
  of the queries, all 2048 rows of batch b of the keys and of the values, and rows ti·512 … of the mask; it stores the same
  rows of batch b of the attention weights and of the output. Each stored block is therefore the block, at that point, of
  ONE function of the region-entry arrays; the sixteen blocks tile both output arrays (row r of batch b lies in the block
  of the point with ti = r / 512), so after the last point each output array is that function.
-/
import proofs.«414261_j26568667693685_3_alg».proof.Proof.Gen.KernelIdeal.Frame
import proofs.«414261_j26568667693685_3_alg».proof.Proof.AttnPayload
import Idealize.ShloMosaic.Lib.Pipeline.Value

set_option maxRecDepth 16384

noncomputable section

namespace Cert.KernelIdeal.AttnValue

open Cert.KernelIdeal Cert.KernelIdeal.Gen Cert.Attention
open Idealize.ShloMosaic Idealize.ShloMosaic.TcCoe Idealize.ShloMosaic.ValueIdx Idealize.SL.Sem

variable (V : (c : Dev nD) → (b : Ref sig .tc) → Buf (Elt Ideal) ((c : Thread nD τ).loc b))

namespace Blocks

/-! ## The index maps over the grid -/

/-- A whole-block access starts at offset zero on every axis (rank 3, rank 2). -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the sixteen points. With (b, ti) the attention block's indices on its first
    two axes: the query block is (b, ti, 0), the key and the value blocks are (b, 0, 0), the mask block is (ti, 0), the
    output block is (b, ti, 0); b and ti stay below 4 and the last index is 0. -/
theorem index_facts : ∀ t : Fin cfg1.N,
    win1_0.index t (0 : Fin 3) = win1_5.index t (0 : Fin 3)
    ∧ win1_0.index t (1 : Fin 3) = win1_5.index t (1 : Fin 3)
    ∧ win1_0.index t (2 : Fin 3) = 0
    ∧ win1_1.index t (0 : Fin 3) = win1_5.index t (0 : Fin 3)
    ∧ win1_1.index t (1 : Fin 3) = 0
    ∧ win1_1.index t (2 : Fin 3) = 0
    ∧ win1_2.index t (0 : Fin 3) = win1_5.index t (0 : Fin 3)
    ∧ win1_2.index t (1 : Fin 3) = 0
    ∧ win1_2.index t (2 : Fin 3) = 0
    ∧ win1_3.index t (0 : Fin 2) = win1_5.index t (1 : Fin 3)
    ∧ win1_3.index t (1 : Fin 2) = 0
    ∧ win1_4.index t (0 : Fin 3) = win1_5.index t (0 : Fin 3)
    ∧ win1_4.index t (1 : Fin 3) = win1_5.index t (1 : Fin 3)
    ∧ win1_4.index t (2 : Fin 3) = 0
    ∧ win1_5.index t (0 : Fin 3) ≤ 3
    ∧ win1_5.index t (1 : Fin 3) ≤ 3
    ∧ win1_5.index t (2 : Fin 3) = 0 :=
  (by decide +kernel : ∀ t : Fin grid1.N, _)

/-- Every pair (batch, query tile) is SOME point's. -/
theorem index_onto : ∀ (b ti : Fin 4), ∃ t : Fin cfg1.N, win1_5.index t = ![b.val, ti.val, 0] :=
  (by decide +kernel : ∀ (b ti : Fin 4), ∃ t : Fin grid1.N, win1_5.index t = ![b.val, ti.val, 0])

/-! ## Each input block, read at explicit coordinates -/

/-- The query block at the point with block indices (b, ti): row p, lane h is the entry array's row ti·512 + p of batch b. -/
theorem qblk_apply (c : Dev nD) (Q : PArr) (hQ : V c main_v5 = Q) (t : Fin cfg1.N) (b ti : Fin 4)
    (hb : win1_5.index t (0 : Fin 3) = b.val) (hti : win1_5.index t (1 : Fin 3) = ti.val)
    (p : Fin 512) (h : Fin 64) :
    (iblk1 V c 0 t : Vec Ideal S1x512x64 .bf16) (ix3 0 p h) = Q (ix3 b ⟨ti.val * 512 + p.val, by omega⟩ h) := by
  obtain ⟨e0, e1, e2, -⟩ := index_facts t
  subst hQ
  unfold iblk1
  rw [View.read_apply]
  show V c main_v5 (((cfg1.win 0).blk t).view.emb (ix3 0 p h)) = V c main_v5 _
  congr 1
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 512 + 1 * p.val = ti.val * 512 + p.val; rw [e1, hti]; omega
  | ⟨2, _⟩ => show win1_0.index t (2 : Fin 3) * 64 + 1 * h.val = h.val; rw [e2]; omega

/-- The key block at a point of batch b: row s, lane h is the entry array's row s of batch b. -/
theorem kblk_apply (c : Dev nD) (K : PArr) (hK : V c main_v4 = K) (t : Fin cfg1.N) (b : Fin 4)
    (hb : win1_5.index t (0 : Fin 3) = b.val) (s : Fin 2048) (h : Fin 64) :
    (iblk1 V c 1 t : Vec Ideal S1x2048x64 .bf16) (ix3 0 s h) = K (ix3 b s h) := by
  obtain ⟨-, -, -, e0, e1, e2, -⟩ := index_facts t
  subst hK
  unfold iblk1
  rw [View.read_apply]
  show V c main_v4 (((cfg1.win 1).blk t).view.emb (ix3 0 s h)) = V c main_v4 _
  congr 1
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 2048 + 1 * s.val = s.val; rw [e1]; omega
  | ⟨2, _⟩ => show win1_1.index t (2 : Fin 3) * 64 + 1 * h.val = h.val; rw [e2]; omega

/-- The value block at a point of batch b: row s, lane h is the entry array's row s of batch b. -/
theorem vblk_apply (c : Dev nD) (Vv : PArr) (hV : V c main_v6 = Vv) (t : Fin cfg1.N) (b : Fin 4)
    (hb : win1_5.index t (0 : Fin 3) = b.val) (s : Fin 2048) (h : Fin 64) :
    (iblk1 V c 2 t : Vec Ideal S1x2048x64 .bf16) (ix3 0 s h) = Vv (ix3 b s h) := by
  obtain ⟨-, -, -, -, -, -, e0, e1, e2, -⟩ := index_facts t
  subst hV
  unfold iblk1
  rw [View.read_apply]
  show V c main_v6 (((cfg1.win 2).blk t).view.emb (ix3 0 s h)) = V c main_v6 _
  congr 1
  funext a
  apply Fin.ext
  match a with
  | ⟨0, _⟩ => show win1_2.index t (0 : Fin 3) * 1 + 1 * (0 : Fin 1).val = b.val; rw [e0, hb]; simp
  | ⟨1, _⟩ => show win1_2.index t (1 : Fin 3) * 2048 + 1 * s.val = s.val; rw [e1]; omega
  | ⟨2, _⟩ => show win1_2.index t (2 : Fin 3) * 64 + 1 * h.val = h.val; rw [e2]; omega

/-- The mask block at a point of query tile ti: row p, column s is the mask's row ti·512 + p, column s. -/
theorem mblk_apply (c : Dev nD) (M : MArr) (hM : V c main_arg3 = M) (t : Fin cfg1.N) (ti : Fin 4)
    (hti : win1_5.index t (1 : Fin 3) = ti.val) (p : Fin 512) (s : Fin 2048) :
    (iblk1 V c 3 t : Vec Ideal S512x2048 .i32) (ix2 p s) = M (ix2 ⟨ti.val * 512 + p.val, by omega⟩ s) := by
  obtain ⟨-, -, -, -, -, -, -, -, -, e0, e1, -⟩ := index_facts t
  subst hM
  unfold iblk1
  rw [View.read_apply]
  show V c main_arg3 (((cfg1.win 3).blk t).view.emb (ix2 p s)) = V c main_arg3 _
  congr 1
  funext a
  apply Fin.ext
  match a with
  | ⟨0, _⟩ => show win1_3.index t (0 : Fin 2) * 512 + 1 * p.val = ti.val * 512 + p.val; rw [e0, hti]; omega
  | ⟨1, _⟩ => show win1_3.index t (1 : Fin 2) * 2048 + 1 * s.val = s.val; rw [e1]; omega

/-! ## The attention weights (output window 5) -/

/-- WHAT A POINT WRITES BACK to the weights is its block of the weights as one function of the entry arrays. -/
theorem attn_flushed (c : Dev nD) (Q K : PArr) (M : MArr)
    (hQ : V c main_v5 = Q) (hK : V c main_v4 = K) (hM : V c main_arg3 = M) (t : Fin cfg1.N) :
    (dat1 (F := Ideal) V c).flushed 5 t = ((cfg1.win 5).blk t).view.read (Elt Ideal) (attnMulArr Q K M) := by
  show (cfg1.win 5).cut (grid1.coords t) ((dat1 V c).after 5 t) = _
  rw [after1_5]
  unfold out1_5
  rw [View.canon_unit_zero zeros3]
  simp only [View.ld_unit_zero (S := S1x512x64) zeros3, View.ld_unit_zero (S := S1x2048x64) zeros3,
    View.ld_unit_zero (S := S512x2048) zeros2]
  obtain ⟨-, -, -, -, -, -, -, -, -, -, -, -, -, -, hb3, hti3, e2⟩ := index_facts t
  obtain ⟨b, hb⟩ : ∃ b : Fin 4, win1_5.index t (0 : Fin 3) = b.val := ⟨⟨win1_5.index t (0 : Fin 3), by omega⟩, rfl⟩
  obtain ⟨ti, hti⟩ : ∃ ti : Fin 4, win1_5.index t (1 : Fin 3) = ti.val := ⟨⟨win1_5.index t (1 : Fin 3), by omega⟩, rfl⟩
  funext j
  obtain ⟨z, p, s, rfl⟩ : ∃ (z : Fin 1) (p : Fin 512) (s : Fin 2048), j = ix3 z p s := ⟨j 0, j 1, j 2, eq_ix3 j⟩
  obtain rfl : z = 0 := Subsingleton.elim _ _
  show k1_pay3 (F := Ideal) (iblk1 V c 0 t) (iblk1 V c 1 t) (iblk1 V c 3 t) (ix3 0 p s)
    = attnMulArr Q K M (((cfg1.win 5).blk t).view.emb (ix3 0 p s))
  have hemb : ((cfg1.win 5).blk t).view.emb (ix3 (0 : Fin 1) p s)
      = ix3 b (⟨ti.val * 512 + p.val, by omega⟩ : Fin 2048) s := by
    funext a
    apply Fin.ext
    match a with
    | ⟨0, _⟩ => show win1_5.index t (0 : Fin 3) * 1 + 1 * (0 : Fin 1).val = b.val; rw [hb]; simp
    | ⟨1, _⟩ => show win1_5.index t (1 : Fin 3) * 512 + 1 * p.val = ti.val * 512 + p.val; rw [hti]; omega
    | ⟨2, _⟩ => show win1_5.index t (2 : Fin 3) * 2048 + 1 * s.val = s.val; rw [e2]; omega
  rw [hemb, attnMulArr_apply]
  exact pay_attn Q K M b ti (iblk1 V c 0 t) (iblk1 V c 1 t) (iblk1 V c 3 t)
    (fun p h => qblk_apply V c Q hQ t b ti hb hti p h) (fun s h => kblk_apply V c K hK t b hb s h)
    (fun p s => mblk_apply V c M hM t ti hti p s) p s

/-- An index of the weights array is in a point's block iff each coordinate is in the block's range on its axis. -/
theorem mem_attn_blk (t : Fin cfg1.N) (i : S4x2048x2048.Idx) :
    i ∈ ((cfg1.win 5).blk t).view.set ↔ ∀ a : Fin 3, win1_5.index t a * S1x512x2048.size a ≤ (i a).val
      ∧ (i a).val < win1_5.index t a * S1x512x2048.size a + S1x512x2048.size a := by
  show i ∈ ((View.whole main_v7_1).slice (win1_5.rect t)).set ↔ _
  rw [View.set_slice_whole, Rect.mem_set_unit]
  exact Iff.rfl

/-- Every index of the weights array is in some point's block: row r of batch b in the block of (b, r / 512). -/
theorem attn_cover (i : S4x2048x2048.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_attn_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 2048 ≤ (i 2).val ∧ (i 2).val < win1_5.index t (2 : Fin 3) * 2048 + 2048; omega

/-! ## The attention output (output window 4) -/

/-- WHAT A POINT WRITES BACK to the output is its block of the output as one function of the entry arrays. -/
theorem out_flushed (c : Dev nD) (Q K Vv : PArr) (M : MArr)
    (hQ : V c main_v5 = Q) (hK : V c main_v4 = K) (hV : V c main_v6 = Vv) (hM : V c main_arg3 = M) (t : Fin cfg1.N) :
    (dat1 (F := Ideal) V c).flushed 4 t = ((cfg1.win 4).blk t).view.read (Elt Ideal) (outMulArr Q K Vv M) := by
  show (cfg1.win 4).cut (grid1.coords t) ((dat1 V c).after 4 t) = _
  rw [after1_4]
  unfold out1_4
  rw [View.canon_unit_zero zeros3]
  simp only [View.ld_unit_zero (S := S1x512x64) zeros3, View.ld_unit_zero (S := S1x2048x64) zeros3,
    View.ld_unit_zero (S := S512x2048) zeros2]
  obtain ⟨-, -, -, -, -, -, -, -, -, -, -, f0, f1, f2, hb3, hti3, -⟩ := index_facts t
  obtain ⟨b, hb⟩ : ∃ b : Fin 4, win1_5.index t (0 : Fin 3) = b.val := ⟨⟨win1_5.index t (0 : Fin 3), by omega⟩, rfl⟩
  obtain ⟨ti, hti⟩ : ∃ ti : Fin 4, win1_5.index t (1 : Fin 3) = ti.val := ⟨⟨win1_5.index t (1 : Fin 3), by omega⟩, rfl⟩
  funext j
  obtain ⟨z, p, h, rfl⟩ : ∃ (z : Fin 1) (p : Fin 512) (h : Fin 64), j = ix3 z p h := ⟨j 0, j 1, j 2, eq_ix3 j⟩
  obtain rfl : z = 0 := Subsingleton.elim _ _
  show k1_pay1 (F := Ideal) (k1_pay4 (F := Ideal) (iblk1 V c 0 t) (iblk1 V c 1 t) (iblk1 V c 2 t) (iblk1 V c 3 t)) (ix3 0 p h)
    = outMulArr Q K Vv M (((cfg1.win 4).blk t).view.emb (ix3 0 p h))
  have hemb : ((cfg1.win 4).blk t).view.emb (ix3 (0 : Fin 1) p h)
      = ix3 b (⟨ti.val * 512 + p.val, by omega⟩ : Fin 2048) h := by
    funext a
    apply Fin.ext
    match a with
    | ⟨0, _⟩ => show win1_4.index t (0 : Fin 3) * 1 + 1 * (0 : Fin 1).val = b.val; rw [f0, hb]; simp
    | ⟨1, _⟩ => show win1_4.index t (1 : Fin 3) * 512 + 1 * p.val = ti.val * 512 + p.val; rw [f1, hti]; omega
    | ⟨2, _⟩ => show win1_4.index t (2 : Fin 3) * 64 + 1 * h.val = h.val; rw [f2]; omega
  rw [hemb, outMulArr_apply]
  exact pay_out Q K Vv M b ti (iblk1 V c 0 t) (iblk1 V c 1 t) (iblk1 V c 2 t) (iblk1 V c 3 t)
    (fun p h => qblk_apply V c Q hQ t b ti hb hti p h) (fun s h => kblk_apply V c K hK t b hb s h)
    (fun s h => vblk_apply V c Vv hV t b hb s h) (fun p s => mblk_apply V c M hM t ti hti p s) p h

/-- An index of the output array is in a point's block iff each coordinate is in the block's range on its axis. -/
theorem mem_out_blk (t : Fin cfg1.N) (i : S4x2048x64.Idx) :
    i ∈ ((cfg1.win 4).blk t).view.set ↔ ∀ a : Fin 3, win1_4.index t a * S1x512x64.size a ≤ (i a).val
      ∧ (i a).val < win1_4.index t a * S1x512x64.size a + S1x512x64.size a := by
  show i ∈ ((View.whole main_v7_0).slice (win1_4.rect t)).set ↔ _
  rw [View.set_slice_whole, Rect.mem_set_unit]
  exact Iff.rfl

/-- Every index of the output array is in some point's block: row r of batch b in the block of (b, r / 512). -/
theorem out_cover (i : S4x2048x64.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  obtain ⟨-, -, -, -, -, -, -, -, -, -, -, f0, f1, f2, -⟩ := index_facts t
  have q0 : win1_5.index t (0 : Fin 3) = (i 0).val := congrFun ht 0
  have q1 : win1_5.index t (1 : Fin 3) = (i 1).val / 512 := congrFun ht 1
  refine ⟨t, flush1_4 t, ?_⟩
  rw [mem_out_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 64 ≤ (i 2).val ∧ (i 2).val < win1_4.index t (2 : Fin 3) * 64 + 64; omega

end Blocks

/-! ## The two arrays after the last point -/

/-- The attention weights array. -/
theorem arr_attn (c : Dev nD) (Q K : PArr) (M : MArr)
    (hQ : V c main_v5 = Q) (hK : V c main_v4 = K) (hM : V c main_arg3 = M) :
    (dat1 (F := Ideal) V c).arrAt 5 cfg1.N = attnMulArr Q K M :=
  (dat1 (F := Ideal) V c).arrAt_eq_of_cover 5 (attnMulArr Q K M)
    (fun t _ => Blocks.attn_flushed V c Q K M hQ hK hM t) Blocks.attn_cover

/-- The attention output array. -/
theorem arr_out (c : Dev nD) (Q K Vv : PArr) (M : MArr)
    (hQ : V c main_v5 = Q) (hK : V c main_v4 = K) (hV : V c main_v6 = Vv) (hM : V c main_arg3 = M) :
    (dat1 (F := Ideal) V c).arrAt 4 cfg1.N = outMulArr Q K Vv M :=
  (dat1 (F := Ideal) V c).arrAt_eq_of_cover 4 (outMulArr Q K Vv M)
    (fun t _ => Blocks.out_flushed V c Q K Vv M hQ hK hV hM t) Blocks.out_cover

end Cert.KernelIdeal.AttnValue

end
-- ==== Proof.ProjArrays.lean ====
/-
  The projection region's three output arrays after its eight grid points, laid out [8192, 64]: row r is (b, t) = (r / 2048, r % 2048).

  Each grid point multiplies a block of 1024 rows of a merged input, [8192, 1024], by a whole weight matrix, [1024, 64], and writes
  the 1024 rows of the product back. An entry of the product is a sum over the shared axis; the merged input's row r is row
  (r / 2048, r % 2048) of the argument; and the eight blocks of rows cover the output array, point r / 1024 covering row r.
-/
import proofs.«414261_j26568667693685_3_alg».proof.Proof.Gen.KernelIdeal.Frame
import proofs.«414261_j26568667693685_3_alg».proof.Proof.Spec
import Idealize.ShloMosaic.PureOps.Ideal.Laws
import Idealize.ShloMosaic.Lib.Pipeline.Value
import Idealize.ShloMosaic.Lib.ValueIdx
import Idealize.ShloMosaic.Lib.StableHlo.Run

set_option maxRecDepth 16384

noncomputable section

namespace Cert.KernelIdeal.ProjValue

open Cert.KernelIdeal Cert.KernelIdeal.Gen Cert.Attention
open Idealize.ShloMosaic Idealize.ShloMosaic.TcCoe Idealize.ShloMosaic.ValueIdx Idealize.SL.Sem

/-- The projection with its two leading axes merged. -/
def proj2 (x : InArr) (w : WArr) : (⟨2, ![8192, 64]⟩ : Shape).Idx → EReal :=
  fun i => proj x w ⟨(i 0).val / 2048, Nat.div_lt_of_lt_mul (show (i 0).val < 2048 * 4 from (i 0).isLt)⟩
    ⟨(i 0).val % 2048, Nat.mod_lt _ (by decide)⟩ ⟨(i 1).val, (i 1).isLt⟩

/-! ## One entry of a projected block: row `p` of the input block against column `h` of the weight block -/

/-- The product's left operand is read at the output's row … -/
private theorem lhs_row (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- … and at the summation index along its second axis; -/
private theorem lhs_col (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- the right operand at the summation index along its first axis … -/
private theorem rhs_row (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- … and at the output's column. -/
private theorem rhs_col (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of a [1024, 1024] block and a [1024, 64] block into a zero accumulator, at (p, h):
    the sum over the shared axis. The format changes around it are the identity on extended reals. -/
private theorem blockProduct_apply (x : FVec Ideal S1024x1024 .bf16) (w : FVec Ideal S1024x64 .bf16) (p : Fin 1024) (h : Fin 64) :
    matmul (F := Ideal) dot_S1024x1024_S1024x64_S1024x64_1_0_0_1_n_n none x w (constant (F := Ideal) S1024x64 .f32 0x00000000#32) (ix2 p h)
      = ∑ k : Fin 1024, x (ix2 p k) * w (ix2 k h) := by
  refine (Ideal.matmul_constant_zero_apply dot_S1024x1024_S1024x64_S1024x64_1_0_0_1_n_n none x w (ix2 p h)).trans ?_
  rw [← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p h) ((ValueIdx.contrEquiv1 dot_S1024x1024_S1024x64_S1024x64_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x64_S1024x64_1_0_0_1_n_n.rhsIdx (ix2 p h) ((ValueIdx.contrEquiv1 dot_S1024x1024_S1024x64_S1024x64_1_0_0_1_n_n 1024 rfl rfl).symm k) = ix2 k h := funext fun a => Fin.ext (by
    match a with
    | ⟨0, _⟩ => exact (rhs_row _ _).trans hk
    | ⟨1, _⟩ => exact rhs_col _ _)
  rw [el, er]

/-- The three payloads of the projection body, each at an entry of its output block. -/
private theorem keyBlock_apply (x : Vec Ideal S1024x1024 .f32) (w : Vec Ideal S1024x64 .f32) (p : Fin 1024) (h : Fin 64) :
    k0_pay1 (F := Ideal) x w (ix2 p h) = ∑ k : Fin 1024, x (ix2 p k) * w (ix2 k h) := by
  unfold k0_pay1
  rw [truncf_apply]
  refine (blockProduct_apply _ _ p h).trans ?_
  rw [shapeCast_self]
  rfl
private theorem queryBlock_apply (x : Vec Ideal S1024x1024 .f32) (w : Vec Ideal S1024x64 .f32) (p : Fin 1024) (h : Fin 64) :
    k0_pay2 (F := Ideal) x w (ix2 p h) = ∑ k : Fin 1024, x (ix2 p k) * w (ix2 k h) := by
  unfold k0_pay2
  rw [truncf_apply]
  refine (blockProduct_apply _ _ p h).trans ?_
  rw [shapeCast_self]
  rfl
private theorem valueBlock_apply (x : Vec Ideal S1024x1024 .f32) (w : Vec Ideal S1024x64 .f32) (p : Fin 1024) (h : Fin 64) :
    k0_pay3 (F := Ideal) x w (ix2 p h) = ∑ k : Fin 1024, x (ix2 p k) * w (ix2 k h) := by
  unfold k0_pay3
  rw [truncf_apply]
  refine (blockProduct_apply _ _ p h).trans ?_
  rw [shapeCast_self]
  rfl

/-- An entry of a projected block is the projection's entry at the block's place in the merged array: the block's rows are
    rows `q * 1024 + p` of the merged input (`hx`), and the weight block is the whole weight matrix (`hw`). -/
private theorem blockEntry (x : Vec Ideal S1024x1024 .f32) (w : Vec Ideal S1024x64 .f32) (X : InArr) (W : WArr)
    (q : ℕ) (hq : q < 8)
    (hx : ∀ p k : Fin 1024, x (ix2 p k)
      = X (ix3 (⟨(q * 1024 + p.val) / 2048, by omega⟩ : Fin 4) (⟨(q * 1024 + p.val) % 2048, by omega⟩ : Fin 2048) k))
    (hw : ∀ (k : Fin 1024) (h : Fin 64), w (ix2 k h) = W (ix2 k h))
    (p : Fin 1024) (h : Fin 64) :
    ∑ k : Fin 1024, x (ix2 p k) * w (ix2 k h) = proj2 X W (ix2 (⟨q * 1024 + p.val, by omega⟩ : Fin 8192) h) := by
  show _ = ∑ k : Fin 1024, X (ix3 _ _ k) * W (ix2 k _)
  exact Finset.sum_congr rfl fun k _ => by rw [hx, hw]

/-! ## The host's reshape before the region: [4, 2048, 1024] read as [8192, 1024] -/

/-- Row `r` of the merged array is row (r / 2048, r % 2048) of the argument. -/
private theorem mergedRows_apply (x : S4x2048x1024.Idx → EReal) (r : Fin 8192) (k : Fin 1024) :
    shapeCast S8192x1024 x shapeCasts_S4x2048x1024_S8192x1024 (ix2 r k)
      = x (ix3 (⟨r.val / 2048, by omega⟩ : Fin 4) (⟨r.val % 2048, by omega⟩ : Fin 2048) k) := by
  refine shapeCast_apply x _ (ix2 r k) _ ?_
  rw [Shape.rowMajor_val_three, Shape.rowMajor_val_two]
  show (r.val / 2048 * 2048 + r.val % 2048) * 1024 + k.val = r.val * 1024 + k.val
  omega

variable (m : (ℓ : Loc nD τ sig) → Buf (Elt Ideal) ℓ) (ρ : Dev nD → PrngReg)

/-- What the region finds in its first three arrays: the three inputs with their leading axes merged. -/
private theorem entry_rows0 (c : Dev nD) :
    (V1 (F := Ideal) m ρ c main_v0 : S8192x1024.Idx → EReal)
      = shapeCast S8192x1024 (m ((c : Thread nD τ).loc main_arg0)) shapeCasts_S4x2048x1024_S8192x1024 := by
  dsimp only [V1, W1, hostOps0]; after_results; rfl
private theorem entry_rows1 (c : Dev nD) :
    (V1 (F := Ideal) m ρ c main_v1 : S8192x1024.Idx → EReal)
      = shapeCast S8192x1024 (m ((c : Thread nD τ).loc main_arg1)) shapeCasts_S4x2048x1024_S8192x1024 := by
  dsimp only [V1, W1, hostOps0]; after_results; rfl
private theorem entry_rows2 (c : Dev nD) :
    (V1 (F := Ideal) m ρ c main_v2 : S8192x1024.Idx → EReal)
      = shapeCast S8192x1024 (m ((c : Thread nD τ).loc main_arg2)) shapeCasts_S4x2048x1024_S8192x1024 := by
  dsimp only [V1, W1, hostOps0]; after_results; rfl

/-- The weight matrices are as launched: no host operation writes them. -/
private theorem entry_weight4 (c : Dev nD) :
    V1 (F := Ideal) m ρ c main_arg4 = m ((c : Thread nD τ).loc main_arg4) := by
  dsimp only [V1, W1, hostOps0]; after_results
private theorem entry_weight5 (c : Dev nD) :
    V1 (F := Ideal) m ρ c main_arg5 = m ((c : Thread nD τ).loc main_arg5) := by
  dsimp only [V1, W1, hostOps0]; after_results
private theorem entry_weight6 (c : Dev nD) :
    V1 (F := Ideal) m ρ c main_arg6 = m ((c : Thread nD τ).loc main_arg6) := by
  dsimp only [V1, W1, hostOps0]; after_results

/-! ## The geometry: eight grid points, each a block of 1024 rows -/

private theorem zeroOffsets : (![0, 0] : Fin 2 → Nat) = fun _ => 0 := funext fun a => by fin_cases a <;> rfl

/-- The printed index maps, decided over the grid: at point `t` the input and output windows sit at block row `t`,
    block column 0; the weight windows at block (0, 0). -/
private theorem blockIndices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

private theorem point_lt (t : Fin cfg0.N) : t.val < 8 := lt_of_lt_of_eq t.isLt N_0

section Blocks
variable (V : (c : Dev nD) → (b : Ref sig .tc) → Buf (Elt Ideal) ((c : Thread nD τ).loc b))

/-- Entry (p, k) of the first window's block at point `t` is entry (t * 1024 + p, k) of its array. -/
private theorem rowsBlock0_apply (c : Dev nD) (t : Fin cfg0.N) (p k : Fin 1024) :
    iblk0 V c 0 t (ix2 p k) = V c main_v0 (ix2 (⟨t.val * 1024 + p.val, by have := point_lt t; omega⟩ : Fin 8192) k) := by
  obtain ⟨⟨e0, e1⟩, -⟩ := blockIndices t
  show V c main_v0 (((cfg0.win 0).blk t).view.emb (ix2 p k)) = _
  refine congrArg (V c main_v0) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The fourth window's block is its whole array at every point. -/
private theorem weightBlock3_apply (c : Dev nD) (t : Fin cfg0.N) (k : Fin 1024) (h : Fin 64) :
    iblk0 V c 3 t (ix2 k h) = V c main_arg4 (ix2 k h) := by
  obtain ⟨-, -, -, ⟨e0, e1⟩, -⟩ := blockIndices t
  show V c main_arg4 (((cfg0.win 3).blk t).view.emb (ix2 k h)) = _
  refine congrArg (V c main_arg4) (funext fun a => Fin.ext ?_)
  match a with
  | ⟨0, _⟩ => show win0_3.index t (0 : Fin 2) * 1024 + 1 * k.val = k.val; omega
  | ⟨1, _⟩ => show win0_3.index t (1 : Fin 2) * 64 + 1 * h.val = h.val; omega

/-- Entry (p, k) of the second window's block at point `t` is entry (t * 1024 + p, k) of its array. -/
private theorem rowsBlock1_apply (c : Dev nD) (t : Fin cfg0.N) (p k : Fin 1024) :
    iblk0 V c 1 t (ix2 p k) = V c main_v1 (ix2 (⟨t.val * 1024 + p.val, by have := point_lt t; omega⟩ : Fin 8192) k) := by
  obtain ⟨-, ⟨e0, e1⟩, -⟩ := blockIndices t
  show V c main_v1 (((cfg0.win 1).blk t).view.emb (ix2 p k)) = _
  refine congrArg (V c main_v1) (funext fun a => Fin.ext ?_)
  match a with
  | ⟨0, _⟩ => show win0_1.index t (0 : Fin 2) * 1024 + 1 * p.val = t.val * 1024 + p.val; omega
  | ⟨1, _⟩ => show win0_1.index t (1 : Fin 2) * 1024 + 1 * k.val = k.val; omega

/-- Entry (p, k) of the third window's block at point `t` is entry (t * 1024 + p, k) of its array. -/
private theorem rowsBlock2_apply (c : Dev nD) (t : Fin cfg0.N) (p k : Fin 1024) :
    iblk0 V c 2 t (ix2 p k) = V c main_v2 (ix2 (⟨t.val * 1024 + p.val, by have := point_lt t; omega⟩ : Fin 8192) k) := by
  obtain ⟨-, -, ⟨e0, e1⟩, -⟩ := blockIndices t
  show V c main_v2 (((cfg0.win 2).blk t).view.emb (ix2 p k)) = _
  refine congrArg (V c main_v2) (funext fun a => Fin.ext ?_)
  match a with
  | ⟨0, _⟩ => show win0_2.index t (0 : Fin 2) * 1024 + 1 * p.val = t.val * 1024 + p.val; omega
  | ⟨1, _⟩ => show win0_2.index t (1 : Fin 2) * 1024 + 1 * k.val = k.val; omega

/-- So is the fifth's … -/
private theorem weightBlock4_apply (c : Dev nD) (t : Fin cfg0.N) (k : Fin 1024) (h : Fin 64) :
    iblk0 V c 4 t (ix2 k h) = V c main_arg5 (ix2 k h) := by
  obtain ⟨-, -, -, -, ⟨e0, e1⟩, -⟩ := blockIndices t
  show V c main_arg5 (((cfg0.win 4).blk t).view.emb (ix2 k h)) = _
  refine congrArg (V c main_arg5) (funext fun a => Fin.ext ?_)
  match a with
  | ⟨0, _⟩ => show win0_4.index t (0 : Fin 2) * 1024 + 1 * k.val = k.val; omega
  | ⟨1, _⟩ => show win0_4.index t (1 : Fin 2) * 64 + 1 * h.val = h.val; omega

/-- … and the sixth's. -/
private theorem weightBlock5_apply (c : Dev nD) (t : Fin cfg0.N) (k : Fin 1024) (h : Fin 64) :
    iblk0 V c 5 t (ix2 k h) = V c main_arg6 (ix2 k h) := by
  obtain ⟨-, -, -, -, -, ⟨e0, e1⟩, -⟩ := blockIndices t
  show V c main_arg6 (((cfg0.win 5).blk t).view.emb (ix2 k h)) = _
  refine congrArg (V c main_arg6) (funext fun a => Fin.ext ?_)
  match a with
  | ⟨0, _⟩ => show win0_5.index t (0 : Fin 2) * 1024 + 1 * k.val = k.val; omega
  | ⟨1, _⟩ => show win0_5.index t (1 : Fin 2) * 64 + 1 * h.val = h.val; omega

end Blocks

/-! ## Keys -/

/-- What point `t` writes back to the keys' array is block `t` of the merged projection. -/
private theorem keyFlushed (c : Dev nD) (t : Fin cfg0.N) :
    (dat0 (V1 (F := Ideal) m ρ) c).flushed 6 t = ((cfg0.win 6).blk t).view.read (Elt Ideal)
      (proj2 (m ((c : Thread nD τ).loc main_arg0)) (m ((c : Thread nD τ).loc main_arg4))) := by
  show (cfg0.win 6).cut (grid0.coords t) ((dat0 (V1 (F := Ideal) m ρ) c).after 6 t) = _
  rw [after0_6]
  unfold out0_6
  rw [View.canon_unit_zero zeroOffsets]
  simp only [View.ld_unit_zero (S := S1024x1024) zeroOffsets, View.ld_unit_zero (S := S1024x64) zeroOffsets]
  obtain ⟨-, -, -, -, -, -, ⟨e0, e1⟩, -⟩ := blockIndices t
  have ht := point_lt t
  refine funext fun (j : S1024x64.Idx) => ?_
  obtain ⟨p, h, rfl⟩ : ∃ (p : Fin 1024) (h : Fin 64), j = ix2 p h := ⟨j 0, j 1, eq_ix2 j⟩
  show k0_pay1 (F := Ideal) (iblk0 (V1 (F := Ideal) m ρ) c 0 t) (iblk0 (V1 (F := Ideal) m ρ) c 3 t) (ix2 p h)
    = proj2 (m ((c : Thread nD τ).loc main_arg0)) (m ((c : Thread nD τ).loc main_arg4)) (((cfg0.win 6).blk t).view.emb (ix2 p h))
  have hemb : ((cfg0.win 6).blk t).view.emb (ix2 p h) = ix2 (⟨t.val * 1024 + p.val, by omega⟩ : Fin 8192) h := by
    refine funext fun a => Fin.ext ?_
    match a with
    | ⟨0, _⟩ => show win0_6.index t (0 : Fin 2) * 1024 + 1 * p.val = t.val * 1024 + p.val; omega
    | ⟨1, _⟩ => show win0_6.index t (1 : Fin 2) * 64 + 1 * h.val = h.val; omega
  rw [hemb]
  refine (keyBlock_apply (iblk0 (V1 (F := Ideal) m ρ) c 0 t) (iblk0 (V1 (F := Ideal) m ρ) c 3 t) p h).trans ?_
  refine blockEntry (iblk0 (V1 (F := Ideal) m ρ) c 0 t) (iblk0 (V1 (F := Ideal) m ρ) c 3 t) _ _ t.val ht (fun p k => ?_) (fun k h => ?_) p h
  · rw [rowsBlock0_apply, entry_rows0, mergedRows_apply]
  · rw [weightBlock3_apply, entry_weight4]

/-- An index of the keys' array is in point `t`'s block iff each coordinate is in the block's range on its axis. -/
private theorem mem_keyBlock (t : Fin cfg0.N) (i : S8192x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v3_0).slice (win0_6.rect t)).set ↔ _
  rw [View.set_slice_whole, Rect.mem_set_unit]
  exact Iff.rfl

/-- Row `r` of the keys' array is written back by point `r / 1024`. -/
private theorem keyCovered (i : S8192x64.Idx) :
    ∃ t : Fin cfg0.N, (cfg0.win 6).flush t = true ∧ i ∈ ((cfg0.win 6).blk t).view.set := by
  have hi0 : (i 0).val < 8192 := (i 0).isLt
  have hi1 : (i 1).val < 64 := (i 1).isLt
  have hN : cfg0.N = 8 := N_0
  obtain ⟨t, htv⟩ : ∃ t : Fin cfg0.N, t.val = (i 0).val / 1024 := ⟨⟨(i 0).val / 1024, by rw [hN]; omega⟩, rfl⟩
  obtain ⟨-, -, -, -, -, -, ⟨e0, e1⟩, -⟩ := blockIndices t
  refine ⟨t, flush0_6 t, ?_⟩
  rw [mem_keyBlock]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 64 ≤ (i 1).val ∧ (i 1).val < win0_6.index t (1 : Fin 2) * 64 + 64; omega

/-- Keys, as the projection region leaves them. -/
theorem exit0_key (c : Dev nD) :
    V2 (F := Ideal) m ρ c main_v3_0 = proj2 (m ((c : Thread nD τ).loc main_arg0)) (m ((c : Thread nD τ).loc main_arg4)) :=
  (W2_arr m ρ c 6).trans ((dat0 (V1 (F := Ideal) m ρ) c).arrAt_eq_of_cover 6 _ (fun t _ => keyFlushed m ρ c t) keyCovered)

/-! ## Queries -/

/-- What point `t` writes back to the queries' array is block `t` of the merged projection. -/
private theorem queryFlushed (c : Dev nD) (t : Fin cfg0.N) :
    (dat0 (V1 (F := Ideal) m ρ) c).flushed 7 t = ((cfg0.win 7).blk t).view.read (Elt Ideal)
      (proj2 (m ((c : Thread nD τ).loc main_arg1)) (m ((c : Thread nD τ).loc main_arg5))) := by
  show (cfg0.win 7).cut (grid0.coords t) ((dat0 (V1 (F := Ideal) m ρ) c).after 7 t) = _
  rw [after0_7]
  unfold out0_7
  rw [View.canon_unit_zero zeroOffsets]
  simp only [View.ld_unit_zero (S := S1024x1024) zeroOffsets, View.ld_unit_zero (S := S1024x64) zeroOffsets]
  obtain ⟨-, -, -, -, -, -, -, ⟨e0, e1⟩, -⟩ := blockIndices t
  have ht := point_lt t
  refine funext fun (j : S1024x64.Idx) => ?_
  obtain ⟨p, h, rfl⟩ : ∃ (p : Fin 1024) (h : Fin 64), j = ix2 p h := ⟨j 0, j 1, eq_ix2 j⟩
  show k0_pay2 (F := Ideal) (iblk0 (V1 (F := Ideal) m ρ) c 1 t) (iblk0 (V1 (F := Ideal) m ρ) c 4 t) (ix2 p h)
    = proj2 (m ((c : Thread nD τ).loc main_arg1)) (m ((c : Thread nD τ).loc main_arg5)) (((cfg0.win 7).blk t).view.emb (ix2 p h))
  have hemb : ((cfg0.win 7).blk t).view.emb (ix2 p h) = ix2 (⟨t.val * 1024 + p.val, by omega⟩ : Fin 8192) h := by
    refine funext fun a => Fin.ext ?_
    match a with
    | ⟨0, _⟩ => show win0_7.index t (0 : Fin 2) * 1024 + 1 * p.val = t.val * 1024 + p.val; omega
    | ⟨1, _⟩ => show win0_7.index t (1 : Fin 2) * 64 + 1 * h.val = h.val; omega
  rw [hemb]
  refine (queryBlock_apply (iblk0 (V1 (F := Ideal) m ρ) c 1 t) (iblk0 (V1 (F := Ideal) m ρ) c 4 t) p h).trans ?_
  refine blockEntry (iblk0 (V1 (F := Ideal) m ρ) c 1 t) (iblk0 (V1 (F := Ideal) m ρ) c 4 t) _ _ t.val ht (fun p k => ?_) (fun k h => ?_) p h
  · rw [rowsBlock1_apply, entry_rows1, mergedRows_apply]
  · rw [weightBlock4_apply, entry_weight5]

/-- An index of the queries' array is in point `t`'s block iff each coordinate is in the block's range on its axis. -/
private theorem mem_queryBlock (t : Fin cfg0.N) (i : S8192x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v3_1).slice (win0_7.rect t)).set ↔ _
  rw [View.set_slice_whole, Rect.mem_set_unit]
  exact Iff.rfl

/-- Row `r` of the queries' array is written back by point `r / 1024`. -/
private theorem queryCovered (i : S8192x64.Idx) :
    ∃ t : Fin cfg0.N, (cfg0.win 7).flush t = true ∧ i ∈ ((cfg0.win 7).blk t).view.set := by
  have hi0 : (i 0).val < 8192 := (i 0).isLt
  have hi1 : (i 1).val < 64 := (i 1).isLt
  have hN : cfg0.N = 8 := N_0
  obtain ⟨t, htv⟩ : ∃ t : Fin cfg0.N, t.val = (i 0).val / 1024 := ⟨⟨(i 0).val / 1024, by rw [hN]; omega⟩, rfl⟩
  obtain ⟨-, -, -, -, -, -, -, ⟨e0, e1⟩, -⟩ := blockIndices t
  refine ⟨t, flush0_7 t, ?_⟩
  rw [mem_queryBlock]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 64 ≤ (i 1).val ∧ (i 1).val < win0_7.index t (1 : Fin 2) * 64 + 64; omega

/-- Queries. -/
theorem exit0_query (c : Dev nD) :
    V2 (F := Ideal) m ρ c main_v3_1 = proj2 (m ((c : Thread nD τ).loc main_arg1)) (m ((c : Thread nD τ).loc main_arg5)) :=
  (W2_arr m ρ c 7).trans ((dat0 (V1 (F := Ideal) m ρ) c).arrAt_eq_of_cover 7 _ (fun t _ => queryFlushed m ρ c t) queryCovered)

/-! ## Values -/

/-- What point `t` writes back to the values' array is block `t` of the merged projection. -/
private theorem valueFlushed (c : Dev nD) (t : Fin cfg0.N) :
    (dat0 (V1 (F := Ideal) m ρ) c).flushed 8 t = ((cfg0.win 8).blk t).view.read (Elt Ideal)
      (proj2 (m ((c : Thread nD τ).loc main_arg2)) (m ((c : Thread nD τ).loc main_arg6))) := by
  show (cfg0.win 8).cut (grid0.coords t) ((dat0 (V1 (F := Ideal) m ρ) c).after 8 t) = _
  rw [after0_8]
  unfold out0_8
  rw [View.canon_unit_zero zeroOffsets]
  simp only [View.ld_unit_zero (S := S1024x1024) zeroOffsets, View.ld_unit_zero (S := S1024x64) zeroOffsets]
  obtain ⟨-, -, -, -, -, -, -, -, e0, e1⟩ := blockIndices t
  have ht := point_lt t
  refine funext fun (j : S1024x64.Idx) => ?_
  obtain ⟨p, h, rfl⟩ : ∃ (p : Fin 1024) (h : Fin 64), j = ix2 p h := ⟨j 0, j 1, eq_ix2 j⟩
  show k0_pay3 (F := Ideal) (iblk0 (V1 (F := Ideal) m ρ) c 2 t) (iblk0 (V1 (F := Ideal) m ρ) c 5 t) (ix2 p h)
    = proj2 (m ((c : Thread nD τ).loc main_arg2)) (m ((c : Thread nD τ).loc main_arg6)) (((cfg0.win 8).blk t).view.emb (ix2 p h))
  have hemb : ((cfg0.win 8).blk t).view.emb (ix2 p h) = ix2 (⟨t.val * 1024 + p.val, by omega⟩ : Fin 8192) h := by
    refine funext fun a => Fin.ext ?_
    match a with
    | ⟨0, _⟩ => show win0_8.index t (0 : Fin 2) * 1024 + 1 * p.val = t.val * 1024 + p.val; omega
    | ⟨1, _⟩ => show win0_8.index t (1 : Fin 2) * 64 + 1 * h.val = h.val; omega
  rw [hemb]
  refine (valueBlock_apply (iblk0 (V1 (F := Ideal) m ρ) c 2 t) (iblk0 (V1 (F := Ideal) m ρ) c 5 t) p h).trans ?_
  refine blockEntry (iblk0 (V1 (F := Ideal) m ρ) c 2 t) (iblk0 (V1 (F := Ideal) m ρ) c 5 t) _ _ t.val ht (fun p k => ?_) (fun k h => ?_) p h
  · rw [rowsBlock2_apply, entry_rows2, mergedRows_apply]
  · rw [weightBlock5_apply, entry_weight6]

/-- An index of the values' array is in point `t`'s block iff each coordinate is in the block's range on its axis. -/
private theorem mem_valueBlock (t : Fin cfg0.N) (i : S8192x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v3_2).slice (win0_8.rect t)).set ↔ _
  rw [View.set_slice_whole, Rect.mem_set_unit]
  exact Iff.rfl

/-- Row `r` of the values' array is written back by point `r / 1024`. -/
private theorem valueCovered (i : S8192x64.Idx) :
    ∃ t : Fin cfg0.N, (cfg0.win 8).flush t = true ∧ i ∈ ((cfg0.win 8).blk t).view.set := by
  have hi0 : (i 0).val < 8192 := (i 0).isLt
  have hi1 : (i 1).val < 64 := (i 1).isLt
  have hN : cfg0.N = 8 := N_0
  obtain ⟨t, htv⟩ : ∃ t : Fin cfg0.N, t.val = (i 0).val / 1024 := ⟨⟨(i 0).val / 1024, by rw [hN]; omega⟩, rfl⟩
  obtain ⟨-, -, -, -, -, -, -, -, e0, e1⟩ := blockIndices t
  refine ⟨t, flush0_8 t, ?_⟩
  rw [mem_valueBlock]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 64 ≤ (i 1).val ∧ (i 1).val < win0_8.index t (1 : Fin 2) * 64 + 64; omega

/-- Values. -/
theorem exit0_value (c : Dev nD) :
    V2 (F := Ideal) m ρ c main_v3_2 = proj2 (m ((c : Thread nD τ).loc main_arg2)) (m ((c : Thread nD τ).loc main_arg6)) :=
  (W2_arr m ρ c 8).trans ((dat0 (V1 (F := Ideal) m ρ) c).arrAt_eq_of_cover 8 _ (fun t _ => valueFlushed m ρ c t) valueCovered)

/-- The mask is untouched by the projection region and the host operations before it. -/
theorem exit0_mask (c : Dev nD) :
    V2 (F := Ideal) m ρ c main_arg3 = m ((c : Thread nD τ).loc main_arg3) := by
  refine (W2_of_ne m ρ c main_arg3 (by decide)).trans ?_
  dsimp only [W1, hostOps0]; after_results

end Cert.KernelIdeal.ProjValue

end
-- ==== Proof.ProjValue.lean ====
/-
  The contents the attention region is entered with: the three projections, laid out [4, 2048, 64], and the mask.

  The projection region leaves each projection as an [8192, 64] array whose row r is (b, t) = (r / 2048, r % 2048).
  Three reshapes then relabel those arrays as [4, 2048, 64]. A reshape keeps every element's row-major position, so
  element (b, t, h) of the reshaped array is element (b · 2048 + t, h) of the flat one, and since t < 2048 the row
  b · 2048 + t splits back into (b, t). The mask is not written by any of the three reshapes.
-/
import proofs.«414261_j26568667693685_3_alg».proof.Proof.Gen.KernelIdeal.Frame
import proofs.«414261_j26568667693685_3_alg».proof.Proof.ProjArrays
import Idealize.ShloMosaic.Lib.StableHlo.Run
import Idealize.ShloMosaic.Lib.Pipeline.Value

set_option maxRecDepth 16384

noncomputable section

namespace Cert.KernelIdeal.ProjValue

open Cert.KernelIdeal Cert.KernelIdeal.Gen Cert.Attention
open Idealize.ShloMosaic Idealize.ShloMosaic.TcCoe Idealize.ShloMosaic.ValueIdx Idealize.SL.Sem

/-- The merged-axes projection read through the [8192, 64] → [4, 2048, 64] relabelling is the projection itself:
    position ((b · 2048 + t) · 64 + h) is the same in both layouts, and (b · 2048 + t) / 2048 = b,
    (b · 2048 + t) % 2048 = t because t < 2048. -/
private theorem proj2_cast (x : InArr) (w : WArr) (hc : S8192x64.ShapeCasts S4x2048x64) :
    shapeCast S4x2048x64 (proj2 x w) hc = projArr x w := by
  funext i
  obtain ⟨b, t, h, rfl⟩ : ∃ (b : Fin 4) (t : Fin 2048) (h : Fin 64), i = ix3 b t h := ⟨_, _, _, eq_ix3 i⟩
  have hb : b.val < 4 := b.isLt
  have ht : t.val < 2048 := t.isLt
  have hr : b.val * 2048 + t.val < 8192 := by omega
  refine (shapeCast_apply (proj2 x w) hc (ix3 b t h) (ix2 (⟨b.val * 2048 + t.val, hr⟩ : Fin 8192) h) ?_).trans ?_
  · rw [Shape.rowMajor_val_two, Shape.rowMajor_val_three]
    show (b.val * 2048 + t.val) * 64 + h.val = (b.val * 2048 + t.val) * 64 + h.val
    rfl
  · rw [projArr_apply]
    unfold proj2
    congr 1
    · exact Fin.ext (by show (b.val * 2048 + t.val) / 2048 = b.val; omega)
    · exact Fin.ext (by show (b.val * 2048 + t.val) % 2048 = t.val; omega)

variable (m : (ℓ : Loc nD τ sig) → Buf (Elt Ideal) ℓ) (ρ : Dev nD → PrngReg)

/-- Queries: the second argument against the sixth. -/
theorem entry_query (c : Dev nD) :
    V3 (F := Ideal) m ρ c main_v5 = projArr (m ((c : Thread nD τ).loc main_arg1)) (m ((c : Thread nD τ).loc main_arg5)) := by
  -- the second reshape writes the flat query array, relabelled, into the array the attention region reads
  have e : (V3 (F := Ideal) m ρ c main_v5 : S4x2048x64.Idx → EReal)
      = shapeCast S4x2048x64 (V2 (F := Ideal) m ρ c main_v3_1 : S8192x64.Idx → EReal) shapeCasts_S8192x64_S4x2048x64 := by
    show StableHlo.after hostOps1 (W2 m ρ c) (Proc.devRef .tc main_v5) = _
    after_results
    rfl
  refine e.trans ?_
  rw [exit0_query]
  exact proj2_cast _ _ _

/-- Keys: the first argument against the fifth. -/
theorem entry_key (c : Dev nD) :
    V3 (F := Ideal) m ρ c main_v4 = projArr (m ((c : Thread nD τ).loc main_arg0)) (m ((c : Thread nD τ).loc main_arg4)) := by
  -- the first reshape writes the flat key array, relabelled, into the array the attention region reads
  have e : (V3 (F := Ideal) m ρ c main_v4 : S4x2048x64.Idx → EReal)
      = shapeCast S4x2048x64 (V2 (F := Ideal) m ρ c main_v3_0 : S8192x64.Idx → EReal) shapeCasts_S8192x64_S4x2048x64 := by
    show StableHlo.after hostOps1 (W2 m ρ c) (Proc.devRef .tc main_v4) = _
    after_results
    rfl
  refine e.trans ?_
  rw [exit0_key]
  exact proj2_cast _ _ _

/-- Values: the third argument against the seventh. -/
theorem entry_value (c : Dev nD) :
    V3 (F := Ideal) m ρ c main_v6 = projArr (m ((c : Thread nD τ).loc main_arg2)) (m ((c : Thread nD τ).loc main_arg6)) := by
  -- the third reshape writes the flat value array, relabelled, into the array the attention region reads
  have e : (V3 (F := Ideal) m ρ c main_v6 : S4x2048x64.Idx → EReal)
      = shapeCast S4x2048x64 (V2 (F := Ideal) m ρ c main_v3_2 : S8192x64.Idx → EReal) shapeCasts_S8192x64_S4x2048x64 := by
    show StableHlo.after hostOps1 (W2 m ρ c) (Proc.devRef .tc main_v6) = _
    after_results
    rfl
  refine e.trans ?_
  rw [exit0_value]
  exact proj2_cast _ _ _

/-- The mask is as launched. -/
theorem entry_mask (c : Dev nD) :
    V3 (F := Ideal) m ρ c main_arg3 = m ((c : Thread nD τ).loc main_arg3) := by
  -- none of the three reshapes writes the mask's buffer, so it holds what the projection region left there
  show StableHlo.after hostOps1 (W2 m ρ c) (Proc.devRef .tc main_arg3) = _
  after_results
  exact exit0_mask m ρ c

end Cert.KernelIdeal.ProjValue

end
-- ==== Proof.KernelValue.lean ====
/-
  The kernel program's run with its two results named: the attention output and the attention weights, as the
  specification's functions (product normalisation) of the three projections of the arguments and the mask.
-/
import proofs.«414261_j26568667693685_3_alg».proof.Proof.KernelRun
import proofs.«414261_j26568667693685_3_alg».proof.Proof.AttnArrays
import proofs.«414261_j26568667693685_3_alg».proof.Proof.ProjValue

set_option maxRecDepth 16384

noncomputable section

namespace Cert.KernelIdeal.Results

open Cert.KernelIdeal Cert.KernelIdeal.Gen Cert.Attention
open Idealize.ShloMosaic Idealize.ShloMosaic.TcCoe Idealize.ShloMosaic.ValueIdx Idealize.SL.Sem

variable (m : (ℓ : Loc nD τ sig) → Buf (Elt Ideal) ℓ) (ρ : Dev nD → PrngReg)

/-- Queries, keys and values of core `c`'s arguments. -/
abbrev queries (c : Dev nD) : PArr := projArr (m ((c : Thread nD τ).loc main_arg1)) (m ((c : Thread nD τ).loc main_arg5))
abbrev keys (c : Dev nD) : PArr := projArr (m ((c : Thread nD τ).loc main_arg0)) (m ((c : Thread nD τ).loc main_arg4))
abbrev values (c : Dev nD) : PArr := projArr (m ((c : Thread nD τ).loc main_arg2)) (m ((c : Thread nD τ).loc main_arg6))

/-- The attention weights the second region leaves in its second output array. -/
theorem attn_result (c : Dev nD) :
    W4 (F := Ideal) m ρ c (Proc.devRef .tc main_v7_1)
      = attnMulArr (queries m c) (keys m c) (m ((c : Thread nD τ).loc main_arg3)) :=
  (W4_arr m ρ c 5).trans (AttnValue.arr_attn (V3 m ρ) c _ _ _
    (ProjValue.entry_query m ρ c) (ProjValue.entry_key m ρ c) (ProjValue.entry_mask m ρ c))

/-- The attention output it leaves in its first. -/
theorem out_result (c : Dev nD) :
    W4 (F := Ideal) m ρ c (Proc.devRef .tc main_v7_0)
      = outMulArr (queries m c) (keys m c) (values m c) (m ((c : Thread nD τ).loc main_arg3)) :=
  (W4_arr m ρ c 4).trans (AttnValue.arr_out (V3 m ρ) c _ _ _ _
    (ProjValue.entry_query m ρ c) (ProjValue.entry_key m ρ c) (ProjValue.entry_value m ρ c) (ProjValue.entry_mask m ρ c))

/-- Every weakly fair execution of the kernel program terminates with the two results at those functions of the arguments,
    the arguments unchanged. -/
theorem run_value : θ_run defs (onTc (τ := τ) (main (F := Ideal))) ⟨m, fun _ => 0, ρ⟩ (fun r => ∀ c : Dev nD,
      r.2.mem ((c.tc : Thread nD τ).loc main_v7_0) = outMulArr (queries m c) (keys m c) (values m c) (m ((c : Thread nD τ).loc main_arg3))
      ∧ r.2.mem ((c.tc : Thread nD τ).loc main_v7_1) = attnMulArr (queries m c) (keys m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (out_result m ρ c), (h c).2.1.trans (attn_result m ρ c), (h c).2.2⟩)
    (run_results m ρ)

end Cert.KernelIdeal.Results

end
-- ==== Proof.RefValue.lean ====
/-
  The reference's two results, as the specification's functions of the arguments (quotient normalisation).
-/
import proofs.«414261_j26568667693685_3_alg».proof.Proof.Gen.ReferenceIdeal.Read
import proofs.«414261_j26568667693685_3_alg».proof.Proof.Spec
import proofs.«414261_j26568667693685_3_alg».proof.Proof.Consts

noncomputable section

namespace Cert.ReferenceIdeal.RefValue

open Cert.ReferenceIdeal Cert.ReferenceIdeal.Gen Cert.ReferenceIdeal.Read Cert.Attention
open Idealize.ShloMosaic Idealize.ShloMosaic.ValueIdx

/-! ## The index maps of the reference's operations, at explicit coordinates -/

private theorem lidx_v0 (b : Fin 4) (t : Fin 2048) (h : Fin 64) (c : Fin 1024) :
    lidx_main_v0 (ix3 b t h) c = ix3 b t c :=
  funext fun a => Fin.ext (by match a with | ⟨0, _⟩ => rfl | ⟨1, _⟩ => rfl | ⟨2, _⟩ => rfl)
private theorem ridx_v0 (b : Fin 4) (t : Fin 2048) (h : Fin 64) (c : Fin 1024) :
    ridx_main_v0 (ix3 b t h) c = ix2 c h :=
  funext fun a => Fin.ext (by match a with | ⟨0, _⟩ => rfl | ⟨1, _⟩ => rfl)
private theorem lidx_v1 (b : Fin 4) (t : Fin 2048) (h : Fin 64) (c : Fin 1024) :
    lidx_main_v1 (ix3 b t h) c = ix3 b t c :=
  funext fun a => Fin.ext (by match a with | ⟨0, _⟩ => rfl | ⟨1, _⟩ => rfl | ⟨2, _⟩ => rfl)
private theorem ridx_v1 (b : Fin 4) (t : Fin 2048) (h : Fin 64) (c : Fin 1024) :
    ridx_main_v1 (ix3 b t h) c = ix2 c h :=
  funext fun a => Fin.ext (by match a with | ⟨0, _⟩ => rfl | ⟨1, _⟩ => rfl)
private theorem lidx_v2 (b : Fin 4) (t : Fin 2048) (h : Fin 64) (c : Fin 1024) :
    lidx_main_v2 (ix3 b t h) c = ix3 b t c :=
  funext fun a => Fin.ext (by match a with | ⟨0, _⟩ => rfl | ⟨1, _⟩ => rfl | ⟨2, _⟩ => rfl)
private theorem ridx_v2 (b : Fin 4) (t : Fin 2048) (h : Fin 64) (c : Fin 1024) :
    ridx_main_v2 (ix3 b t h) c = ix2 c h :=
  funext fun a => Fin.ext (by match a with | ⟨0, _⟩ => rfl | ⟨1, _⟩ => rfl)
/-- The score at (b, t, s) pairs query row (b, t) … -/
private theorem lidx_v4 (b : Fin 4) (t s : Fin 2048) (h : Fin 64) :
    lidx_main_v4 (ix3 b t s) h = ix3 b t h :=
  funext fun a => Fin.ext (by match a with | ⟨0, _⟩ => rfl | ⟨1, _⟩ => rfl | ⟨2, _⟩ => rfl)
/-- … with key row (b, s). -/
private theorem ridx_v4 (b : Fin 4) (t s : Fin 2048) (h : Fin 64) :
    ridx_main_v4 (ix3 b t s) h = ix3 b s h :=
  funext fun a => Fin.ext (by match a with | ⟨0, _⟩ => rfl | ⟨1, _⟩ => rfl | ⟨2, _⟩ => rfl)
/-- The mask is shared by the four batches. -/
private theorem idx_call0 (b : Fin 4) (t s : Fin 2048) : idx_main_call0_v0 (ix3 b t s) = ix2 t s :=
  funext fun a => Fin.ext (by match a with | ⟨0, _⟩ => rfl | ⟨1, _⟩ => rfl)
/-- A row's statistic is shared by the row's 2048 columns (through a unit axis). -/
private theorem idx_v13_v14 (b : Fin 4) (t s : Fin 2048) : idx_main_v13 (idx_main_v14 (ix3 b t s)) = ix2 b t :=
  funext fun a => Fin.ext (by match a with | ⟨0, _⟩ => rfl | ⟨1, _⟩ => rfl)
private theorem idx_v18_v19 (b : Fin 4) (t s : Fin 2048) : idx_main_v18 (idx_main_v19 (ix3 b t s)) = ix2 b t :=
  funext fun a => Fin.ext (by match a with | ⟨0, _⟩ => rfl | ⟨1, _⟩ => rfl)
private theorem idx_v17 (b : Fin 4) (t s : Fin 2048) : idx_main_v17 (ix2 b t) s = ix3 b t s :=
  funext fun a => Fin.ext (by match a with | ⟨0, _⟩ => rfl | ⟨1, _⟩ => rfl | ⟨2, _⟩ => rfl)
private theorem lidx_v21 (b : Fin 4) (t : Fin 2048) (h : Fin 64) (s : Fin 2048) :
    lidx_main_v21 (ix3 b t h) s = ix3 b t s :=
  funext fun a => Fin.ext (by match a with | ⟨0, _⟩ => rfl | ⟨1, _⟩ => rfl | ⟨2, _⟩ => rfl)
private theorem ridx_v21 (b : Fin 4) (t : Fin 2048) (h : Fin 64) (s : Fin 2048) :
    ridx_main_v21 (ix3 b t h) s = ix3 b s h :=
  funext fun a => Fin.ext (by match a with | ⟨0, _⟩ => rfl | ⟨1, _⟩ => rfl | ⟨2, _⟩ => rfl)

/-! ## The three projections -/

/-- The keys: x0 · x4. -/
theorem v0_eq (x0 : InArr) (x4 : WArr) : val_main_v0 (F := Ideal) x0 x4 = projArr x0 x4 := by
  funext i
  obtain ⟨b, t, h, rfl⟩ : ∃ (b : Fin 4) (t : Fin 2048) (h : Fin 64), i = ix3 b t h := ⟨_, _, _, eq_ix3 i⟩
  rw [val_main_v0_apply, projArr_apply]
  unfold proj
  exact Finset.sum_congr rfl fun c _ => by rw [lidx_v0, ridx_v0]

/-- The queries: x1 · x5. -/
theorem v1_eq (x1 : InArr) (x5 : WArr) : val_main_v1 (F := Ideal) x1 x5 = projArr x1 x5 := by
  funext i
  obtain ⟨b, t, h, rfl⟩ : ∃ (b : Fin 4) (t : Fin 2048) (h : Fin 64), i = ix3 b t h := ⟨_, _, _, eq_ix3 i⟩
  rw [val_main_v1_apply, projArr_apply]
  unfold proj
  exact Finset.sum_congr rfl fun c _ => by rw [lidx_v1, ridx_v1]

/-- The values: x2 · x6. -/
theorem v2_eq (x2 : InArr) (x6 : WArr) : val_main_v2 (F := Ideal) x2 x6 = projArr x2 x6 := by
  funext i
  obtain ⟨b, t, h, rfl⟩ : ∃ (b : Fin 4) (t : Fin 2048) (h : Fin 64), i = ix3 b t h := ⟨_, _, _, eq_ix3 i⟩
  rw [val_main_v2_apply, projArr_apply]
  unfold proj
  exact Finset.sum_congr rfl fun c _ => by rw [lidx_v2, ridx_v2]

/-! ## The scale -/

/-- 1024 ^ (-1/2) = 1/32. -/
theorem v3_eq (i : S_.Idx) : val_main_v3 (F := Ideal) i = ((1 / 32 : ℝ) : EReal) := by
  rw [val_main_v3_apply, val_main_cst_apply, val_main_cst_0_apply]
  simp only [Ideal.hostPowf_def, Ideal.ofBits_def]
  rw [Consts.ofBits_1024, Consts.ofBits_neg_half, Consts.pow_scale]

/-! ## The masked, scaled score -/

private theorem ofBool_eq_one (c : Bool) : BitVec.ofBool c = 1#1 ↔ c = true := by cases c <;> decide

/-- The integer comparison with zero yields the bit 1 exactly on the zero words. -/
private theorem cmpi_zero_iff (a : BitVec 32) : IntOp.cmpi .eq a 0#32 = 1#1 ↔ a = 0#32 := by
  simp only [IntOp.cmpi, ofBool_eq_one, beq_iff_eq]

/-- Stage 9: -∞ where the mask is zero, the scaled score of query row t against key row s elsewhere. -/
theorem v9_eq (x0 x1 : InArr) (x3 : MArr) (x4 x5 : WArr) (b : Fin 4) (t s : Fin 2048) :
    val_main_v9 (F := Ideal) x0 x1 x3 x4 x5 (ix3 b t s) = logit (projArr x1 x5) (projArr x0 x4) x3 b t s := by
  rw [val_main_v9_apply, val_main_call0_v0_apply, val_main_v8_apply, val_main_v7_apply, val_main_c_apply,
    val_main_call0_v1_apply, val_main_cst_1_apply, val_main_v6_apply, val_main_v4_apply, val_main_v5_apply, v3_eq,
    v1_eq, v0_eq, idx_call0]
  unfold logit
  by_cases hm : x3 (ix2 t s) = 0#32
  · rw [if_pos hm, (cmpi_zero_iff _).mpr hm, select_one]
    exact Consts.ofBits_neg_inf
  · rw [if_neg hm, eq_zero_of_ne_one (fun h => hm ((cmpi_zero_iff _).mp h)), select_zero]
    simp only [Ideal.mulf_def]
    exact congrArg (· * ((1 / 32 : ℝ) : EReal)) (Finset.sum_congr rfl fun h _ => by rw [lidx_v4, ridx_v4])

/-! ## The row maximum -/

/-- Row (b, t) with column k put back is (b, t, k). -/
private theorem lift_row (hR : S4x2048x2048.Reduces [2] S4x2048) (b : Fin 4) (t : Fin 2048)
    (k : Fin (S4x2048x2048.size 2)) : hR.lift (ix2 b t) k = ix3 b t (⟨k.val, k.isLt⟩ : Fin 2048) := by
  funext c; apply Fin.ext
  match c with | ⟨0, _⟩ => rfl | ⟨1, _⟩ => rfl | ⟨2, _⟩ => rfl

/-- Stage 10: the fold of the maximum over the row, from -∞. -/
theorem v10_eq (x0 x1 : InArr) (x3 : MArr) (x4 x5 : WArr) (b : Fin 4) (t : Fin 2048) :
    val_main_v10 (F := Ideal) x0 x1 x3 x4 x5 (ix2 b t) = rowMax (projArr x1 x5) (projArr x0 x4) x3 b t := by
  have hy : ∀ s : Fin 2048, val_main_v9 (F := Ideal) x0 x1 x3 x4 x5 (ix3 b t s)
      = logit (projArr x1 x5) (projArr x0 x4) x3 b t s := fun s => v9_eq x0 x1 x3 x4 x5 b t s
  unfold val_main_v10 rowMax
  generalize val_main_v9 (F := Ideal) x0 x1 x3 x4 x5 = y at hy ⊢
  have hR : S4x2048x2048.Reduces [2] S4x2048 := by decide
  refine (Host.reduce_eq_fold_single (α := Ideal .f32) (s := S4x2048x2048) (t := S4x2048) (a := 2) (u := S_)
    (FloatOps.maximumf (F := Ideal) (φ := .f32)) y (val_main_cst_2 (F := Ideal))
    reducesTo_S4x2048x2048_S4x2048_d2 hR h_S_ (ix2 b t)).trans ?_
  have hf : (y ∘ hR.lift (ix2 b t)) = fun s : Fin 2048 => logit (projArr x1 x5) (projArr x0 x4) x3 b t s :=
    funext fun s => (congrArg y (lift_row hR b t s)).trans (hy _)
  have hinit : val_main_cst_2 (F := Ideal) (Shape.Idx.first h_S_) = (⊥ : EReal) := Consts.ofBits_neg_inf
  rw [hinit]
  exact congrArg (fun f => Finset.fold max (⊥ : EReal) f (Finset.univ : Finset (Fin 2048))) hf

/-- Stage 12: the maximum with -∞ changes nothing. -/
theorem v12_eq (x0 x1 : InArr) (x3 : MArr) (x4 x5 : WArr) (b : Fin 4) (t : Fin 2048) :
    val_main_v12 (F := Ideal) x0 x1 x3 x4 x5 (ix2 b t) = rowMax (projArr x1 x5) (projArr x0 x4) x3 b t := by
  rw [val_main_v12_apply, val_main_v11_apply, val_main_cst_3_apply, v10_eq]
  simp only [Ideal.maximumf_def, Ideal.ofBits_def]
  rw [Consts.ofBits_neg_inf]
  exact max_bot_left _

/-! ## The weights and their normaliser -/

/-- Stage 16: the exponential of the score less its row's maximum. -/
theorem v16_eq (x0 x1 : InArr) (x3 : MArr) (x4 x5 : WArr) (b : Fin 4) (t s : Fin 2048) :
    val_main_v16 (F := Ideal) x0 x1 x3 x4 x5 (ix3 b t s) = weight (projArr x1 x5) (projArr x0 x4) x3 b t s := by
  rw [val_main_v16_apply, val_main_v15_apply, val_main_v14_apply, val_main_v13_apply, idx_v13_v14, v12_eq, v9_eq]
  simp only [Ideal.hostUnary_exp_def, Ideal.subf_def]
  rfl

/-- Stage 17: the row's sum of weights (from the zero word). -/
theorem v17_eq (x0 x1 : InArr) (x3 : MArr) (x4 x5 : WArr) (b : Fin 4) (t : Fin 2048) :
    val_main_v17 (F := Ideal) x0 x1 x3 x4 x5 (ix2 b t) = denom (projArr x1 x5) (projArr x0 x4) x3 b t := by
  rw [val_main_v17_apply, val_main_cst_4_apply]
  simp only [Ideal.ofBits_def]
  rw [Ideal.ofBits_zero_f32, zero_add]
  unfold denom
  exact Finset.sum_congr rfl fun s _ => by rw [idx_v17, v16_eq]

/-! ## The two results -/

/-- The attention weights the reference returns. -/
theorem attn_eq (x0 x1 : InArr) (x3 : MArr) (x4 x5 : WArr) :
    val_main_v20 (F := Ideal) x0 x1 x3 x4 x5 = attnDivArr (projArr x1 x5) (projArr x0 x4) x3 := by
  funext i
  obtain ⟨b, t, s, rfl⟩ : ∃ (b : Fin 4) (t s : Fin 2048), i = ix3 b t s := ⟨_, _, _, eq_ix3 i⟩
  rw [val_main_v20_apply, val_main_v19_apply, val_main_v18_apply, idx_v18_v19, v17_eq, v16_eq, attnDivArr_apply]
  simp only [Ideal.hostDivf_def]
  rfl

/-- The attention output the reference returns. -/
theorem out_eq (x0 x1 x2 : InArr) (x3 : MArr) (x4 x5 x6 : WArr) :
    val_main_v21 (F := Ideal) x0 x1 x2 x3 x4 x5 x6 = outDivArr (projArr x1 x5) (projArr x0 x4) (projArr x2 x6) x3 := by
  funext i
  obtain ⟨b, t, h, rfl⟩ : ∃ (b : Fin 4) (t : Fin 2048) (h : Fin 64), i = ix3 b t h := ⟨_, _, _, eq_ix3 i⟩
  rw [val_main_v21_apply, outDivArr_apply, attn_eq, v2_eq]
  unfold outDiv
  exact Finset.sum_congr rfl fun s _ => by rw [lidx_v21, ridx_v21, attnDivArr_apply]

end Cert.ReferenceIdeal.RefValue

end
-- ==== Proof.Bridge.lean ====
/-
  The two normalisations agree where the row's normaliser is not zero, and it is not zero on a row that keeps a key.
-/
import proofs.«414261_j26568667693685_3_alg».proof.Proof.Spec

noncomputable section

namespace Cert.Attention

open Idealize.ShloMosaic Idealize.ShloMosaic.ValueIdx

/-! ### Finite sums of reals inside the extended reals -/

/-- A finite sum of reals, read in the extended reals, is the sum of the terms read there. -/
private theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of products of reals is a real: the real sum of the real products. -/
private theorem sum_mul_coe {ι : Type} (s : Finset ι) (f g : ι → ℝ) :
    ∑ i ∈ s, ((f i : EReal) * (g i : EReal)) = ((∑ i ∈ s, f i * g i : ℝ) : EReal) := by
  rw [coe_sum]
  exact Finset.sum_congr rfl (fun i _ => (EReal.coe_mul _ _).symm)

/-! ### The projection of real arrays -/

/-- Row (b, t) of a real x against column h of a real w is a real. -/
private theorem proj_real (x : InArr) (w : WArr) (hx : Finite x) (hw : Finite w) (b : Fin 4) (t : Fin 2048)
    (h : Fin 64) : ∃ r : ℝ, proj x w b t h = (r : EReal) := by
  have hx' : ∀ i, ∃ r : ℝ, x i = (r : EReal) := hx
  have hw' : ∀ i, ∃ r : ℝ, w i = (r : EReal) := hw
  choose xr hxr using hx'
  choose wr hwr using hw'
  refine ⟨∑ c : Fin 1024, xr (ix3 b t c) * wr (ix2 c h), ?_⟩
  unfold proj
  rw [← sum_mul_coe]
  exact Finset.sum_congr rfl (fun c _ => by rw [hxr, hwr])

/-- A projection of real arrays is real. -/
theorem projArr_finite (x : InArr) (w : WArr) (hx : Finite x) (hw : Finite w) : Finite (projArr x w) := by
  intro i
  obtain ⟨r, hr⟩ := proj_real x w hx hw ⟨(i 0).val, (i 0).isLt⟩ ⟨(i 1).val, (i 1).isLt⟩ ⟨(i 2).val, (i 2).isLt⟩
  exact ⟨r, hr⟩

/-! ### The row's normaliser is positive -/

/-- On real queries and keys a logit is -∞ where the mask is zero and a real elsewhere. -/
private theorem logit_cases (Q K : PArr) (M : MArr) (hQ : Finite Q) (hK : Finite K) (b : Fin 4) (t s : Fin 2048) :
    (M (ix2 t s) = 0#32 ∧ logit Q K M b t s = ⊥) ∨
      (M (ix2 t s) ≠ 0#32 ∧ ∃ r : ℝ, logit Q K M b t s = (r : EReal)) := by
  have hQ' : ∀ i, ∃ r : ℝ, Q i = (r : EReal) := hQ
  have hK' : ∀ i, ∃ r : ℝ, K i = (r : EReal) := hK
  choose q hq using hQ'
  choose k hk using hK'
  by_cases hm : M (ix2 t s) = 0#32
  · exact Or.inl ⟨hm, if_pos hm⟩
  · refine Or.inr ⟨hm, (∑ h : Fin 64, q (ix3 b t h) * k (ix3 b s h)) * (1 / 32 : ℝ), ?_⟩
    have e : ∑ h : Fin 64, Q (ix3 b t h) * K (ix3 b s h)
        = ((∑ h : Fin 64, q (ix3 b t h) * k (ix3 b s h) : ℝ) : EReal) := by
      rw [← sum_mul_coe]
      exact Finset.sum_congr rfl (fun h _ => by rw [hq, hk])
    unfold logit
    rw [if_neg hm, e, ← EReal.coe_mul]

/-- The exponential of an extended real is never negative: 0 at -∞, +∞ at +∞, a positive real at a real. -/
private theorem exp_nonneg (x : EReal) : 0 ≤ Ideal.exp x := by
  induction x using EReal.rec with
  | bot => exact (Ideal.exp_bot).ge
  | coe r => rw [Ideal.exp_coe]; exact EReal.coe_nonneg.mpr (Real.exp_pos r).le
  | top => rw [Ideal.exp_top]; exact le_top

/-- On real queries and keys, the largest logit of a row that keeps a key is a real: no logit is +∞, so the
    maximum is not, and the kept key's logit is a real below it, so the maximum is not -∞. -/
private theorem rowMax_real (Q K : PArr) (M : MArr) (hQ : Finite Q) (hK : Finite K) (hM : RowsKept M)
    (b : Fin 4) (t : Fin 2048) : ∃ R : ℝ, rowMax Q K M b t = (R : EReal) := by
  obtain ⟨s₀, hs₀⟩ := hM t
  have hlt : rowMax Q K M b t < ⊤ := by
    unfold rowMax
    rw [Finset.fold_max_lt]
    refine ⟨bot_lt_top, fun s _ => ?_⟩
    show logit Q K M b t s < ⊤
    rcases logit_cases Q K M hQ hK b t s with ⟨_, h⟩ | ⟨_, r, h⟩
    · rw [h]; exact bot_lt_top
    · rw [h]; exact EReal.coe_lt_top r
  have hne_bot : rowMax Q K M b t ≠ ⊥ := by
    rcases logit_cases Q K M hQ hK b t s₀ with ⟨h0, _⟩ | ⟨_, r, h⟩
    · exact absurd h0 hs₀
    · have hle : (r : EReal) ≤ rowMax Q K M b t := by
        unfold rowMax
        rw [Finset.le_fold_max]
        exact Or.inr ⟨s₀, Finset.mem_univ _, le_of_eq h.symm⟩
      intro hb
      rw [hb] at hle
      exact EReal.coe_ne_bot r (le_bot_iff.mp hle)
  exact ⟨(rowMax Q K M b t).toReal, (EReal.coe_toReal hlt.ne hne_bot).symm⟩

/-- Every weight is at least 0. -/
private theorem weight_nonneg (Q K : PArr) (M : MArr) (b : Fin 4) (t s : Fin 2048) : 0 ≤ weight Q K M b t s := by
  unfold weight
  exact exp_nonneg _

/-- The row's normaliser is positive: the kept key's weight is the exponential of a real, and no weight is negative. -/
private theorem denom_pos (Q K : PArr) (M : MArr) (hQ : Finite Q) (hK : Finite K) (hM : RowsKept M)
    (b : Fin 4) (t : Fin 2048) : 0 < denom Q K M b t := by
  obtain ⟨s₀, hs₀⟩ := hM t
  obtain ⟨R, hR⟩ := rowMax_real Q K M hQ hK hM b t
  have hw0 : 0 < weight Q K M b t s₀ := by
    rcases logit_cases Q K M hQ hK b t s₀ with ⟨h0, _⟩ | ⟨_, r, h⟩
    · exact absurd h0 hs₀
    · unfold weight
      rw [h, hR, ← EReal.coe_sub, Ideal.exp_coe]
      exact EReal.coe_pos.mpr (Real.exp_pos _)
  have hle : weight Q K M b t s₀ ≤ denom Q K M b t := by
    unfold denom
    exact Finset.single_le_sum (f := fun s => weight Q K M b t s)
      (fun s _ => weight_nonneg Q K M b t s) (Finset.mem_univ s₀)
  exact lt_of_lt_of_le hw0 hle

/-! ### The two normalisations -/

/-- Off zero a quotient is the product with the inverse, so w · (1 / d) = w · (1 · d⁻¹) = w · d⁻¹ = w / d. -/
private theorem attnMul_eq_attnDiv (Q K : PArr) (M : MArr) (hQ : Finite Q) (hK : Finite K) (hM : RowsKept M)
    (b : Fin 4) (t s : Fin 2048) : attnMul Q K M b t s = attnDiv Q K M b t s := by
  have hd : denom Q K M b t ≠ 0 := (denom_pos Q K M hQ hK hM b t).ne'
  unfold attnMul attnDiv Ideal.div
  rw [if_neg hd, if_neg hd, one_mul]

/-- On real queries and keys, under a mask every row of which keeps a key, weight · (1 / denom) = weight / denom. -/
theorem attnMulArr_eq_attnDivArr (Q K : PArr) (M : MArr) (hQ : Finite Q) (hK : Finite K) (hM : RowsKept M) :
    attnMulArr Q K M = attnDivArr Q K M := by
  funext i
  unfold attnMulArr attnDivArr
  exact attnMul_eq_attnDiv Q K M hQ hK hM _ _ _

/-- Hence the outputs agree too. -/
theorem outMulArr_eq_outDivArr (Q K V : PArr) (M : MArr) (hQ : Finite Q) (hK : Finite K) (hM : RowsKept M) :
    outMulArr Q K V M = outDivArr Q K V M := by
  funext i
  unfold outMulArr outDivArr outMul outDiv
  exact Finset.sum_congr rfl (fun s _ => by rw [attnMul_eq_attnDiv Q K M hQ hK hM])

end Cert.Attention

end
-- ==== Proof.PreRead.lean ====
/-
  What the precondition says of the arguments: each float argument holds only real numbers, and every query row of the mask
  keeps at least one key.

  The printed predicate is a conjunction (a chain of "and"s on one-bit scalars) of seven conjuncts. Six say, of one float
  argument a, that |a| < +∞ holds at every index (a reduction by "and" over all axes of the elementwise comparison); over the
  extended reals |x| = max x (-x) is below ⊤ exactly when x is neither ⊤ nor ⊥, that is, when x is a real. The seventh says
  that every row of the mask has a nonzero entry: a reduction by "or" along the columns of the elementwise test "≠ 0",
  followed by a reduction by "and" over the rows.
-/
import proofs.«414261_j26568667693685_3_alg».proof.Pre_finite_inputs
import proofs.«414261_j26568667693685_3_alg».proof.Proof.Spec
import Idealize.ShloMosaic.Lib.ReduceAll
import Idealize.ShloMosaic.Lib.StableHlo.Predicate

noncomputable section

namespace Cert.Attention

open Idealize.ShloMosaic Idealize.ShloMosaic.ValueIdx

/-! ## A reduction by "or" read back -/

/-- A left fold by "or" over one-bit words that came out 1 started at 1 or met a 1. -/
private theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons.2 (Or.inl rfl), ha⟩
    · exact Or.inr ⟨n, List.mem_cons.2 (Or.inr hn), hf⟩

/-- A reduction by "or" from the initial value 0 that is 1 at j met a 1 at some operand index that reduces into j. -/
private theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx)
    (e : Host.reduce IntOp.ori x init h hu j = 1#1) : ∃ i, h.drop i = j ∧ x i = 1#1 := by
  rw [Host.reduce_eq_foldl] at e
  rcases foldl_ori_eq_one x _ _ e with h0 | ⟨i, hi, hx⟩
  · rw [hinit] at h0
    exact absurd h0 (by decide)
  · exact ⟨i, of_decide_eq_true (List.mem_filter.1 hi).2, hx⟩

/-! ## One element below +∞ -/

/-- The word 0x7F800000 is +∞. -/
private theorem inf_word : Ideal.ofBits .f32 0x7F800000#32 = (⊤ : EReal) := by
  simp [Ideal.ofBits, Ideal.ieee]

/-- An extended real whose absolute value max x (-x) is below ⊤ is a real: ⊤ itself is not below ⊤, and -⊥ = ⊤. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison |x| < +∞ came out 1: x is a real. -/
private theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  -- at the extended reals the comparison is the order's, |x| is max x (-x), and the word is read by `Ideal.ofBits`
  change Ideal.cmp .olt (max x (-x)) (Ideal.ofBits .f32 0x7F800000#32) = 1#1 at h
  rw [inf_word] at h
  refine real_of_abs_lt_top x ?_
  by_contra hn
  simp only [Ideal.cmp, hn, decide_false] at h
  exact absurd h (by decide)

/-! ## The two kinds of conjunct -/

/-- "All of |a| < +∞" came out 1: every entry of a is a real. -/
private theorem finite_of_all {S : Shape} {axes : List (Fin S.rank)} (a : S.Idx → EReal)
    (hb : (⟨0, ![]⟩ : Shape).BroadcastsInDim S ![]) (hr : S.ReducesTo axes ⟨0, ![]⟩) (h0 : 0 < (⟨0, ![]⟩ : Shape).numel)
    (e : Host.reduce IntOp.andi
        (cmpf (F := Ideal) .olt (Host.absf (F := Ideal) (φ := .f32) a)
          (broadcastInDim S ![] hb (constant (F := Ideal) ⟨0, ![]⟩ .f32 0x7F800000#32)))
        (constantI ⟨0, ![]⟩ 1 1#1) hr h0 ix0 = 1#1) : Finite a := by
  intro i
  have hi := Host.reduce_andi_eq_one _ _ hr h0 _ e i (funext fun d => d.elim0)
  rw [cmpf_apply, StableHlo.Predicate.bcast_scalar hb h0] at hi
  exact real_of_cmp (a i) hi

/-- "All rows have some entry ≠ 0" came out 1: every row of the mask keeps a key. -/
private theorem rowsKept_of_all_any (M : MArr)
    (hb : (⟨0, ![]⟩ : Shape).BroadcastsInDim (⟨2, ![2048, 2048]⟩ : Shape) ![])
    (hr1 : (⟨2, ![2048, 2048]⟩ : Shape).ReducesTo [1] ⟨1, ![2048]⟩) (hr0 : (⟨1, ![2048]⟩ : Shape).ReducesTo [0] ⟨0, ![]⟩)
    (h0 : 0 < (⟨0, ![]⟩ : Shape).numel)
    (e : Host.reduce IntOp.andi
        (Host.reduce IntOp.ori (cmpi .ne M (broadcastInDim (⟨2, ![2048, 2048]⟩ : Shape) ![] hb (constantI ⟨0, ![]⟩ 32 0#32)))
          (constantI ⟨0, ![]⟩ 1 0#1) hr1 h0)
        (constantI ⟨0, ![]⟩ 1 1#1) hr0 h0 ix0 = 1#1) : RowsKept M := by
  intro t
  have ht := Host.reduce_andi_eq_one _ _ hr0 h0 _ e (ix1 t) (funext fun d => d.elim0)
  obtain ⟨i, hd, hx⟩ := reduce_ori_eq_one _ _ hr1 h0 rfl (ix1 t) ht
  -- the reduction along the columns sends an index to its row
  have hv : (hr1.drop i 0 : Nat) = i 0 := Shape.ReducesTo.drop_apply_val hr1 i 0
  rw [hd] at hv
  have hi : ix2 t (⟨(i 1).val, (i 1).isLt⟩ : Fin 2048) = i := by
    funext b
    match b with
    | ⟨0, _⟩ => exact Fin.ext hv
    | ⟨1, _⟩ => rfl
  refine ⟨⟨(i 1).val, (i 1).isLt⟩, ?_⟩
  rw [hi]
  have hne := IntOp.cmpi_ne.1 hx
  rwa [StableHlo.Predicate.bcast_scalar hb h0] at hne

/-! ## The printed precondition -/

/-- The printed precondition, all ones, read back. -/
theorem of_pre [Cert.Pre_finite_inputs.Facts] (a0 a1 a2 : InArr) (a3 : MArr) (a4 a5 a6 : WArr)
    (h : Cert.Pre_finite_inputs.fn (F := Ideal) a0 a1 a2 a3 a4 a5 a6 = fun _ => 1#1) :
    Finite a0 ∧ Finite a1 ∧ Finite a2 ∧ Finite a4 ∧ Finite a5 ∧ Finite a6 ∧ RowsKept a3 := by
  have h0 := congrFun h ValueIdx.ix0
  dsimp only [Cert.Pre_finite_inputs.fn, Cert.Pre_finite_inputs.fn_part1, Cert.Pre_finite_inputs.fn_part2] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨finite_of_all a0 _ _ _ h3, finite_of_all a1 _ _ _ h7, finite_of_all a2 _ _ _ h12,
    finite_of_all a4 _ _ _ h17, finite_of_all a5 _ _ _ h22, finite_of_all a6 _ _ _ h27,
    rowsKept_of_all_any a3 _ _ _ _ h32⟩

end Cert.Attention

end
-- ==== Proof.lean ====
/-
  Causal-mask attention, one head: queries, keys and values are projections q·Wq, k·Wk, v·Wv of three [4, 2048, 1024]
  inputs by [1024, 64] weights; the scores query·keyᵀ / 32 are set to -∞ where the integer mask is zero; each row is
  soft-maxed; the output is the weights times the values. The kernel program computes the projections in one
  pallas_call (eight row blocks of 1024) and the attention in a second (sixteen blocks: four query tiles by four batches), and
  normalises a row by multiplying with the reciprocal of its sum; the reference divides by the sum. Over the extended reals
  w · (1 / d) = w / d whenever d ≠ 0, and a row's sum is at least exp 0 = 1 as soon as the row keeps one key and the inputs
  are real numbers: that is the precondition (every float input finite; every row of the mask has a nonzero entry).
  The kernel's mask fill, a large negative float, is named -∞ by the certificate's table: that is the ledger's one entry.

  The three frames are the generated ones; the kernel program's run with its results named is read off the generated
  frame (KernelRun, KernelValue, over ProjArrays / ProjValue for the first region and AttnPayload / AttnArrays for the
  second); the reference's run is the generated one, read stage by stage (RefValue); Bridge joins the two normalisations
  and PreRead reads the precondition.
-/
import proofs.«414261_j26568667693685_3_alg».proof.Defs
import proofs.«414261_j26568667693685_3_alg».proof.Proof.Gen.Kernel
import proofs.«414261_j26568667693685_3_alg».proof.Proof.Gen.Kernel.Skeleton
import proofs.«414261_j26568667693685_3_alg».proof.Proof.Gen.Kernel.Launch
import proofs.«414261_j26568667693685_3_alg».proof.Proof.Gen.Kernel.Points
import proofs.«414261_j26568667693685_3_alg».proof.Proof.Gen.Kernel.Frame
import proofs.«414261_j26568667693685_3_alg».proof.Proof.Gen.KernelIdeal
import proofs.«414261_j26568667693685_3_alg».proof.Proof.Gen.KernelIdeal.Skeleton
import proofs.«414261_j26568667693685_3_alg».proof.Proof.Gen.KernelIdeal.Launch
import proofs.«414261_j26568667693685_3_alg».proof.Proof.Gen.KernelIdeal.Points
import proofs.«414261_j26568667693685_3_alg».proof.Proof.Gen.KernelIdeal.Frame
import proofs.«414261_j26568667693685_3_alg».proof.Proof.Gen.ReferenceIdeal
import proofs.«414261_j26568667693685_3_alg».proof.Proof.Gen.ReferenceIdeal.Run
import proofs.«414261_j26568667693685_3_alg».proof.Proof.Gen.ReferenceIdeal.Read
import proofs.«414261_j26568667693685_3_alg».proof.Proof.Gen.Pre_finite_inputs
import proofs.«414261_j26568667693685_3_alg».proof.Proof.KernelValue
import proofs.«414261_j26568667693685_3_alg».proof.Proof.RefValue
import proofs.«414261_j26568667693685_3_alg».proof.Proof.Bridge
import proofs.«414261_j26568667693685_3_alg».proof.Proof.PreRead
import Idealize.ShloMosaic.Adequacy
import Idealize.ShloMosaic.Init

noncomputable section

namespace Cert.Proof

open Idealize.ShloMosaic Idealize.ShloMosaic.TcCoe Idealize.SL.Sem Cert.Attention

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger's one entry: the table gives the mask fill the value -∞. -/
theorem preserves : Cert.preserves_Kernel_KernelIdeal :=
  IdealRules.named_const.statement Cert.KernelIdeal.κ "neg_big" .f32 0xF149F2CA#32 ⊥ rfl

/-- From memories agreeing on the arguments both programs end with the same attention output and the same attention
    weights: the kernel's product normalisation and the reference's quotient agree on real queries and keys under a mask
    every row of which keeps a key. -/
theorem algebraic : Cert.algebraic_KernelIdeal_ReferenceIdeal := by
  intro m ρ m' ρ' hpre hagree
  refine ⟨fun c => outMulArr (Cert.KernelIdeal.Results.queries m c) (Cert.KernelIdeal.Results.keys m c)
      (Cert.KernelIdeal.Results.values m c) (m ((c.tc : Thread Cert.KernelIdeal.nD Cert.KernelIdeal.τ).loc Cert.KernelIdeal.main_arg3)),
    fun c => attnMulArr (Cert.KernelIdeal.Results.queries m c) (Cert.KernelIdeal.Results.keys m c)
      (m ((c.tc : Thread Cert.KernelIdeal.nD Cert.KernelIdeal.τ).loc Cert.KernelIdeal.main_arg3)),
    Cert.KernelIdeal.Results.run_value m ρ, ?_⟩
  refine (θ_run Cert.ReferenceIdeal.defs _ _).mono (fun r h c => ?_) (Cert.ReferenceIdeal.Value.run (F := Ideal) m' ρ')
  obtain ⟨e0, e1, e2, e3, e4, e5, e6⟩ := hagree c
  obtain ⟨f0, f1, f2, f4, f5, f6, hrows⟩ := Cert.Attention.of_pre _ _ _ _ _ _ _ (hpre c)
  have hQ := projArr_finite _ _ f1 f5
  have hK := projArr_finite _ _ f0 f4
  refine ⟨?_, ?_, (h c).2.2⟩
  · rw [(h c).1, Cert.ReferenceIdeal.Read.val_main_v21_eq, Cert.ReferenceIdeal.RefValue.out_eq, e0, e1, e2, e3, e4, e5, e6]
    exact (outMulArr_eq_outDivArr _ _ _ _ hQ hK hrows).symm
  · rw [(h c).2.1, Cert.ReferenceIdeal.Read.val_main_v20_eq, Cert.ReferenceIdeal.RefValue.attn_eq, e0, e1, e3, e4, e5]
    exact (attnMulArr_eq_attnDivArr _ _ _ hQ hK hrows).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
